-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 32000#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S64x1 : Shape := ⟨2, ![64, 1]⟩
abbrev S64x32000 : Shape := ⟨2, ![64, 32000]⟩
abbrev S64x6400 : Shape := ⟨2, ![64, 6400]⟩
abbrev S64 : Shape := ⟨1, ![64]⟩

abbrev nBuf : Space → Nat
  | .hbm => 12
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x32000, .f32⟩
  | .local _ .vmem, ⟨0, _⟩ => ⟨S64x1, .i32⟩
  | .local _ .vmem, ⟨1, _⟩ => ⟨S64x1, .i32⟩
  | .local _ .vmem, ⟨2, _⟩ => ⟨S64x32000, .f32⟩
  | .local _ .vmem, ⟨3, _⟩ => ⟨S64x32000, .f32⟩
  | .local _ .vmem, ⟨4, _⟩ => ⟨S64x32000, .f32⟩
  | .local _ .vmem, ⟨5, _⟩ => ⟨S64x32000, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096 : S_.BroadcastsInDim S4096 (![] : Fin 0 → Fin S4096.rank)
  shapeCasts_S4096_S4096x1 : S4096.ShapeCasts S4096x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x6400_d1_w32 : S64x6400.Iotas .tc 32 [1]
  inb_S64x32000_S64x6400_0_0 : ∀ a, (![0, 0] : Fin 2 → Nat) a + S64x6400.size a ≤ S64x32000.size a
  h_S64x6400 : 0 < S64x6400.numel
  broadcasts_S64x1_S64x6400 : S64x1.Broadcasts S64x6400
  reduces_S64x6400_S64 : S64x6400.Reduces [1] S64
  shapeCasts_S64_S64x1 : S64.ShapeCasts S64x1
  inb_S64x32000_S64x6400_0_6400 : ∀ a, (![0, 6400] : Fin 2 → Nat) a + S64x6400.size a ≤ S64x32000.size a
  inb_S64x32000_S64x6400_0_12800 : ∀ a, (![0, 12800] : Fin 2 → Nat) a + S64x6400.size a ≤ S64x32000.size a
  inb_S64x32000_S64x6400_0_19200 : ∀ a, (![0, 19200] : Fin 2 → Nat) a + S64x6400.size a ≤ S64x32000.size a
  inb_S64x32000_S64x6400_0_25600 : ∀ a, (![0, 25600] : Fin 2 → Nat) a + S64x6400.size a ≤ S64x32000.size a
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S4096x1.size a
  hwx0_0 : ∀ i : grid0.Coords, EltTy.bits .i32 = 32 ∨ (Rect.block (s := S4096x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32000.size a ≤ S4096x32000.size a
  hwx0_1 : ∀ i : grid0.Coords, EltTy.bits .f32 = 32 ∨ (Rect.block (s := S4096x32000) S64x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32000.size a ≤ S4096x32000.size a
  hwx0_2 : ∀ i : grid0.Coords, EltTy.bits .f32 = 32 ∨ (Rect.block (s := S4096x32000) S64x32000.size (cc0_transform_2 i) (hinb0_2 i)).WholeWords (EltTy.packing .f32)

variable [Facts₀]

abbrev win0_0 : Pipeline.Window sig grid0 :=
  Pipeline.Window.ofSpec (Memref.whole main_v1) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S4096x2 : Shape := ⟨2, ![4096, 2]⟩

abbrev nBuf : Space → Nat
  | .hbm => 64
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S4096x1, .i32⟩
  | .hbm, ⟨5, _⟩ => ⟨S_, .i32⟩
  | .hbm, ⟨6, _⟩ => ⟨S4096x1, .i32⟩
  | .hbm, ⟨7, _⟩ => ⟨S4096x1, .i1⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S4096x1, .i32⟩
  | .hbm, ⟨12, _⟩ => ⟨S4096x1x1, .i32⟩
  | .hbm, ⟨13, _⟩ => ⟨S1, .i32⟩
  | .hbm, ⟨14, _⟩ => ⟨S_, .i32⟩
  | .hbm, ⟨15, _⟩ => ⟨S4096x1x1, .i32⟩
  | .hbm, ⟨16, _⟩ => ⟨S4096x1x1, .i1⟩
  | .hbm, ⟨17, _⟩ => ⟨S1x1x1, .i32⟩
  | .hbm, ⟨18, _⟩ => ⟨S4096x1x1, .i32⟩
  | .hbm, ⟨19, _⟩ => ⟨S4096x1x1, .i1⟩
  | .hbm, ⟨20, _⟩ => ⟨S4096x1x1, .i1⟩
  | .hbm, ⟨21, _⟩ => ⟨S_, .i1⟩
  | .hbm, ⟨22, _⟩ => ⟨S4096x1, .i1⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096x1, .f32⟩
  | .hbm, ⟨39, _⟩ => ⟨S4096x32000, .f32⟩
  | .hbm, ⟨40, _⟩ => ⟨S4096x32000, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096, .i32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x1, .i32⟩
  | .hbm, ⟨62, _⟩ => ⟨S4096x2, .i32⟩
  | .hbm, ⟨63, _⟩ => ⟨S4096x32000, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_5 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S_S4096 : S_.BroadcastsInDim S4096 (![] : Fin 0 → Fin S4096.rank)
  bcast_S4096x1_S4096x32000_0_1 : S4096x1.BroadcastsInDim S4096x32000 (![0, 1] : Fin 2 → Fin S4096x32000.rank)
  concatenates_S4096x1_S4096x1_S4096x2_d1 : Shape.Concatenates [S4096x1, S4096x1] S4096x2 1
  gather_S4096x32000_S4096x1x1_S4096x1_n_1_0_0_1_2_11_wf : GatherDims.WF S4096x32000 S4096x1x1 S4096x1 [] [1] [0] [1] [0] 2 ![1, 1]
  scatter_S4096x32000_S4096x2_S4096_n_01_01_1_wf : ScatterDims.WF S4096x32000 S4096x2 S4096 [] [0, 1] [0, 1] 1

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def scatter_S4096x32000_S4096x2_S4096_n_01_01_1 : ScatterDims S4096x32000 S4096x2 S4096 where
  updateWindowDims := []
  insertedWindowDims := [0, 1]
  scatterDimsToOperandDims := [0, 1]
  indexVectorDim := 1
  wf := scatter_S4096x32000_S4096x2_S4096_n_01_01_1_wf

class Facts : Prop extends Facts₀ where

variable [Facts]
-- ==== Proof.Rescale.lean ====
/-
  The function both programs compute, row by row, on the extended reals.

  For a row r of the logits x (4096 rows of 32000 columns) with label ℓ_r:
    S_r    = Σ_j x[r, j]                         the row's sum
    t_r    = x[r, ℓ_r]                           the row's entry at its label
    s_r    = α / (1 + S_r − 2·t_r)               the row's scale (α, 1 and 2 the binary values of the f32 literals)
    corr_r = 1 − s_r·S_r
    out[r, j] = s_r·x[r, j] + (corr_r if j = ℓ_r, else 0).
  The label's column is taken clamped into [0, 31999] so that the function is total; on labels in range the clamp
  is the identity. The quotient is the ideal instance's (whatever it answers at a zero denominator, both programs
  ask it the same question).

  Two facts about sums join the two programs: a row's sum over 32000 columns is the sum of its five chunks of
  6400 columns added left to right from zero, and a sum of that shape whose terms vanish off one column is the
  term at that column. Both hold in any commutative additive monoid; no finiteness is used.
-/
import Idealize.ShloMosaic.PureOps.Ideal
import Idealize.ShloMosaic.PureOps.Ideal.Laws
import Idealize.ShloMosaic.Lib.ValueIdx

noncomputable section

open scoped BigOperators

namespace Cert.Rescale

open Idealize.ShloMosaic Idealize.ShloMosaic.ValueIdx

/-- The f32 literal 1.0, as its exact value. -/
abbrev one : EReal := Ideal.ofBits .f32 0x3F800000#32
/-- The f32 literal 2.0. -/
abbrev two : EReal := Ideal.ofBits .f32 0x40000000#32
/-- The f32 literal nearest 0.95 (the same word in both programs, so never evaluated). -/
abbrev alpha : EReal := Ideal.ofBits .f32 0x3F733333#32

/-- S_r: the sum of row r. -/
def rowSum (x : (⟨2, ![4096, 32000]⟩ : Shape).Idx → EReal) (r : Fin 4096) : EReal :=
  ∑ j : Fin 32000, x (ix2 r j)

/-- The column of row r's label, clamped into the row. -/
def labelCol (lab : (⟨1, ![4096]⟩ : Shape).Idx → BitVec 32) (r : Fin 4096) : Fin 32000 :=
  ⟨min (lab (ix1 r)).toNat 31999, by omega⟩

/-- On a label in range the clamp does nothing. -/
theorem labelCol_val (lab : (⟨1, ![4096]⟩ : Shape).Idx → BitVec 32) (r : Fin 4096) (h : (lab (ix1 r)).toNat < 32000) :
    (labelCol lab r).val = (lab (ix1 r)).toNat := by
  show min (lab (ix1 r)).toNat 31999 = _
  omega

/-- t_r: row r at its label. -/
def atLabel (x : (⟨2, ![4096, 32000]⟩ : Shape).Idx → EReal) (lab : (⟨1, ![4096]⟩ : Shape).Idx → BitVec 32) (r : Fin 4096) : EReal :=
  x (ix2 r (labelCol lab r))

/-- s_r = α / (1 + S_r − 2 t_r). -/
def scale (x : (⟨2, ![4096, 32000]⟩ : Shape).Idx → EReal) (lab : (⟨1, ![4096]⟩ : Shape).Idx → BitVec 32) (r : Fin 4096) : EReal :=
  Ideal.div alpha (one + rowSum x r - two * atLabel x lab r)

/-- corr_r = 1 − s_r S_r. -/
def corr (x : (⟨2, ![4096, 32000]⟩ : Shape).Idx → EReal) (lab : (⟨1, ![4096]⟩ : Shape).Idx → BitVec 32) (r : Fin 4096) : EReal :=
  one - scale x lab r * rowSum x r

/-- out[r, j]. -/
def entry (x : (⟨2, ![4096, 32000]⟩ : Shape).Idx → EReal) (lab : (⟨1, ![4096]⟩ : Shape).Idx → BitVec 32) (r : Fin 4096) (j : Fin 32000) : EReal :=
  scale x lab r * x (ix2 r j) + if j.val = (lab (ix1 r)).toNat then corr x lab r else 0

/-- The whole result array. -/
def G (x : (⟨2, ![4096, 32000]⟩ : Shape).Idx → EReal) (lab : (⟨1, ![4096]⟩ : Shape).Idx → BitVec 32) :
    (⟨2, ![4096, 32000]⟩ : Shape).Idx → EReal :=
  fun i => entry x lab ⟨(i 0).val, idx2_lt0 i⟩ ⟨(i 1).val, idx2_lt1 i⟩

theorem G_apply (x : (⟨2, ![4096, 32000]⟩ : Shape).Idx → EReal) (lab : (⟨1, ![4096]⟩ : Shape).Idx → BitVec 32) (r : Fin 4096) (j : Fin 32000) :
    G x lab (ix2 r j) = entry x lab r j := rfl

/-- Column q of chunk k: the row's columns in five runs of 6400. -/
def chunkCol (k : Fin 5) (q : Fin 6400) : Fin 32000 :=
  ⟨6400 * k.val + q.val, by have := k.isLt; have := q.isLt; omega⟩

end Cert.Rescale

end
-- ==== Proof.BodyTerms.lean ====
/-
  The kernel's body, read at a row of a block.

  A block is 64 rows of the logits (64 × 32000) with the rows' labels (64 × 1). The body walks the row in five chunks
  of 6400 columns. From the chunks a₁ … a₅ and the labels it forms, as columns of 64 entries:
    S    = ((((0 + Σ a₁) + Σ a₂) + Σ a₃) + Σ a₄) + Σ a₅          each Σ a chunk's row sums,
    t    = the same nest of MASKED row sums, chunk k's mask set at lane q exactly when q = label − 6400·k as 32-bit words,
    s    = α / (1 + S − 2 t),      corr = 1 − s·S,
  and stores, chunk by chunk, s·a_k + corr·(the mask as 0.0 / 1.0).
  These are restated here as small definitions (equal to the body's own terms by unfolding) and read at a row:
  a lane sum is a sum over the chunk's 6400 columns; for a label below 32000 the word test q = label − c holds exactly
  when c + q is the label's column (no wrap: both sides stay below 2³²), so a masked sum keeps the terms at the label's
  column and the mask's 0.0 / 1.0 multiplies corr to 0 or corr.
-/
import proofs.«428629_j901943132312_3_alg».proof.Proof.Gen.KernelIdeal.Frame
import proofs.«428629_j901943132312_3_alg».proof.Proof.Rescale
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.KernelIdeal.Body

open Cert.KernelIdeal Cert.KernelIdeal.Gen Idealize.ShloMosaic Idealize.ShloMosaic.ValueIdx Cert.Rescale
/-- A column vector broadcast along the chunk's columns reads its row's entry. -/
theorem col_bcast {α : Type} (v : S64x1.Idx → α) (p : Fin 64) (q : Fin 6400) :
    broadcastTo S64x6400 v broadcasts_S64x1_S64x6400 (ix2 p q) = v (ix2 p (0 : Fin 1)) := by
  refine broadcastTo_apply v _ (ix2 p q) (ix2 p (0 : Fin 1)) (fun a => ?_)
  match a with
  | ⟨0, _⟩ => show p.val = if (64 : Nat) = 1 then 0 else p.val; rw [if_neg (by decide)]
  | ⟨1, _⟩ => show (0 : Nat) = if (1 : Nat) = 1 then 0 else q.val; rw [if_pos rfl]

/-- A load of the 6400 columns from column c on reads the block at column c + q. -/
theorem ld_cols (x1 : Vec Ideal S64x32000 .f32) (c : Nat) (inb : ∀ a, (![0, c] : Fin 2 → Nat) a + S64x6400.size a ≤ S64x32000.size a)
    (p : Fin 64) (q : Fin 6400) (h : c + q.val < 32000) :
    View.ld x1 (Rect.unit (s := S64x32000) ![0, c] S64x6400.size inb) (ix2 p q) = x1 (ix2 p (⟨c + q.val, h⟩ : Fin 32000)) := by
  show x1 ((Rect.unit (s := S64x32000) ![0, c] S64x6400.size inb).emb (ix2 p q)) = _
  refine congrArg x1 (funext fun a => Fin.ext ?_)
  match a with
  | ⟨0, _⟩ => show 0 + 1 * p.val = p.val; omega
  | ⟨1, _⟩ => show c + 1 * q.val = c + q.val; omega

theorem hz : (![0, 0] : Fin 2 → Nat) = fun _ => 0 := funext fun a => by fin_cases a <;> rfl

/-- The labels column as loaded and cast to itself is the block's labels. -/
theorem lab_eq (x0 : Vec Ideal S64x1 .i32) : k0_pay3 (F := Ideal) (View.ld x0 r0_0) = x0 := by
  unfold k0_pay3
  rw [shapeCast_self, View.ld_unit_zero (S := S64x1) hz]

/-- A chunk's lane sum kept as a column is the sum of the row's entries in the chunk. -/
theorem chunk_sum (v : Vec Ideal S64x6400 .f32) (p : Fin 64) (hφ : FKind.Formats .f32) (hacc : (0x00000000#32 : BitVec 32) = 0x00000000#32) :
    shapeCast S64x1 (multiReduction (F := Ideal) .add [1] S64 v 0x00000000#32 reduces_S64x6400_S64 hφ hacc) shapeCasts_S64_S64x1 (ix2 p (0 : Fin 1))
      = ∑ q : Fin 6400, v (ix2 p q) := by
  rw [shapeCast_apply _ shapeCasts_S64_S64x1 (ix2 p (0 : Fin 1)) (ix1 p) (by
    rw [Shape.rowMajor_val_two, Shape.rowMajor_val_one]; show p.val = p.val * 1 + 0; omega)]
  refine (Ideal.multiReduction_add_single v 0x00000000#32 reduces_S64x6400_S64 hφ hacc (ix1 p)).trans ?_
  refine Finset.sum_congr rfl fun q _ => congrArg v (funext fun a => Fin.ext ?_)
  match a with
  | ⟨0, _⟩ => rfl
  | ⟨1, _⟩ => rfl

/-- A word below 32000 less a chunk's first column is the word of column q exactly when the chunk's column q is the word's column. -/
theorem word_eq_iff (lab : BitVec 32) (hl : lab.toNat < 32000) (c : Nat) (hc : c ≤ 25600) (q : Nat) (hq : q < 6400) :
    BitVec.ofNat 32 q = lab - BitVec.ofNat 32 c ↔ c + q = lab.toNat := by
  constructor
  · intro h
    have := congrArg BitVec.toNat h
    simp only [BitVec.toNat_sub, BitVec.toNat_ofNat] at this
    omega
  · intro h
    apply BitVec.eq_of_toNat_eq
    simp only [BitVec.toNat_sub, BitVec.toNat_ofNat]
    omega

/-! ## The body's values as functions of the chunks -/

/-- The column index along a chunk's lanes. -/
abbrev lanes : IVec S64x6400 32 := iota .tc S64x6400 32 [1] iota_S64x6400_d1_w32

/-- A chunk's row sums, kept as a column. -/
def rowsOf (v : Vec Ideal S64x6400 .f32) : FVec Ideal S64x1 .f32 :=
  shapeCast S64x1 (multiReduction (F := Ideal) .add [1] S64 v 0x00000000#32 reduces_S64x6400_S64 (.inl rfl) rfl) shapeCasts_S64_S64x1

/-- The chunk's mask: lane q is the row's label less the chunk's first column c. -/
def maskOf (c : BitVec 32) (lab : IVec S64x1 32) : IVec S64x6400 1 :=
  cmpi .eq lanes (broadcastTo S64x6400 (subi lab (broadcast S64x1 c)) broadcasts_S64x1_S64x6400)

/-- The chunk's masked row sums. -/
def pickOf (c : BitVec 32) (lab : IVec S64x1 32) (v : Vec Ideal S64x6400 .f32) : FVec Ideal S64x1 .f32 :=
  rowsOf (select (maskOf c lab) v (broadcast S64x6400 (Scalar.ofBits (F := Ideal) .f32 0x00000000#32)))

/-- S: the five chunks' row sums added from zero. -/
def sumVec (a1 a2 a3 a4 a5 : Vec Ideal S64x6400 .f32) : FVec Ideal S64x1 .f32 :=
  addf (addf (addf (addf (addf (broadcast S64x1 (Scalar.ofBits (F := Ideal) .f32 0x00000000#32)) (rowsOf a1)) (rowsOf a2)) (rowsOf a3)) (rowsOf a4)) (rowsOf a5)

/-- t: the five chunks' masked row sums added from zero. -/
def pickVec (lab : IVec S64x1 32) (a1 a2 a3 a4 a5 : Vec Ideal S64x6400 .f32) : FVec Ideal S64x1 .f32 :=
  addf (addf (addf (addf (addf (broadcast S64x1 (Scalar.ofBits (F := Ideal) .f32 0x00000000#32)) (pickOf 0#32 lab a1)) (pickOf 6400#32 lab a2)) (pickOf 12800#32 lab a3))
    (pickOf 19200#32 lab a4)) (pickOf 25600#32 lab a5)

/-- s = α / (1 + S − 2 t). -/
def scaleVec (lab : IVec S64x1 32) (a1 a2 a3 a4 a5 : Vec Ideal S64x6400 .f32) : FVec Ideal S64x1 .f32 :=
  divf (broadcast S64x1 (Scalar.ofBits (F := Ideal) .f32 0x3F733333#32))
    (subf (addf (broadcast S64x1 (Scalar.ofBits (F := Ideal) .f32 0x3F800000#32)) (sumVec a1 a2 a3 a4 a5))
      (mulf (broadcast S64x1 (Scalar.ofBits (F := Ideal) .f32 0x40000000#32)) (pickVec lab a1 a2 a3 a4 a5)))

/-- corr = 1 − s S. -/
def corrVec (lab : IVec S64x1 32) (a1 a2 a3 a4 a5 : Vec Ideal S64x6400 .f32) : FVec Ideal S64x1 .f32 :=
  subf (broadcast S64x1 (Scalar.ofBits (F := Ideal) .f32 0x3F800000#32)) (mulf (scaleVec lab a1 a2 a3 a4 a5) (sumVec a1 a2 a3 a4 a5))

/-- One chunk of the output: s·x + corr·mask. -/
def outChunk (c : BitVec 32) (lab : IVec S64x1 32) (s corr : FVec Ideal S64x1 .f32) (v : Vec Ideal S64x6400 .f32) : FVec Ideal S64x6400 .f32 :=
  addf (mulf (broadcastTo S64x6400 s broadcasts_S64x1_S64x6400) v)
    (mulf (broadcastTo S64x6400 corr broadcasts_S64x1_S64x6400) (sitofp .f32 (extui 32 (maskOf c lab) natLt_1_32)))

section
variable (L0 : Vec Ideal S64x1 .i32) (a1 a2 a3 a4 a5 : Vec Ideal S64x6400 .f32)

set_option maxRecDepth 65536 in
theorem pay8_eq :
    k0_pay8 (F := Ideal) (k0_pay3 L0) lanes (k0_pay4 L0 a1 a2) a3 (k0_pay5 L0) (k0_pay6 a1 a2 a3) a4 a5
      = scaleVec (k0_pay3 L0) a1 a2 a3 a4 a5 := rfl

set_option maxRecDepth 65536 in
theorem pay9_eq :
    k0_pay9 (F := Ideal) (k0_pay3 L0) lanes (k0_pay4 L0 a1 a2) a3 (k0_pay5 L0) (k0_pay6 a1 a2 a3) a4 a5
      = corrVec (k0_pay3 L0) a1 a2 a3 a4 a5 := rfl
end

section
variable (lab : IVec S64x1 32) (s corr : FVec Ideal S64x1 .f32) (v : Vec Ideal S64x6400 .f32)
theorem pay10_eq : k0_pay10 (F := Ideal) lab lanes s corr v = outChunk 0#32 lab s corr v := rfl
theorem pay11_eq : k0_pay11 (F := Ideal) lab lanes s corr v = outChunk 6400#32 lab s corr v := rfl
theorem pay12_eq : k0_pay12 (F := Ideal) lab lanes s corr v = outChunk 12800#32 lab s corr v := rfl
theorem pay1_eq : k0_pay1 (F := Ideal) lab lanes s corr v 19200#32 = outChunk 19200#32 lab s corr v := rfl
theorem pay2_eq : k0_pay2 (F := Ideal) lab lanes s corr v = outChunk 25600#32 lab s corr v := rfl
end

/-! ## Reading them at a row -/

theorem rowsOf_apply (v : Vec Ideal S64x6400 .f32) (p : Fin 64) :
    rowsOf v (ix2 p (0 : Fin 1)) = ∑ q : Fin 6400, v (ix2 p q) := by
  unfold rowsOf
  exact chunk_sum v p _ _

theorem maskOf_apply (c : BitVec 32) (lab : IVec S64x1 32) (p : Fin 64) (q : Fin 6400) :
    maskOf c lab (ix2 p q) = IntOp.cmpi .eq (BitVec.ofNat 32 q.val) (lab (ix2 p (0 : Fin 1)) - c) := by
  show IntOp.cmpi .eq (lanes (ix2 p q)) (broadcastTo S64x6400 (subi lab (broadcast S64x1 c)) broadcasts_S64x1_S64x6400 (ix2 p q)) = _
  rw [show lanes (ix2 p q) = BitVec.ofNat 32 q.val from iota_single_apply .tc S64x6400 32 1 iota_S64x6400_d1_w32 (ix2 p q), col_bcast]
  rfl

/-- The mask's bit, decided: lane q of the chunk from column c is set exactly when c + q is the label. -/
theorem mask_bit (c : Nat) (hc : c ≤ 25600) (lab : IVec S64x1 32) (p : Fin 64) (q : Fin 6400)
    (hl : (lab (ix2 p (0 : Fin 1))).toNat < 32000) :
    maskOf (BitVec.ofNat 32 c) lab (ix2 p q) = if c + q.val = (lab (ix2 p (0 : Fin 1))).toNat then 1#1 else 0#1 := by
  rw [maskOf_apply]
  by_cases h : c + q.val = (lab (ix2 p (0 : Fin 1))).toNat
  · rw [if_pos h]
    exact StableHlo.Predicate.cmpi_eq_iff.2 ((word_eq_iff _ hl c hc q.val q.isLt).2 h)
  · rw [if_neg h]
    exact eq_zero_of_ne_one fun h1 => h ((word_eq_iff _ hl c hc q.val q.isLt).1 (StableHlo.Predicate.cmpi_eq_iff.1 h1))

/-- A chunk's masked row sum keeps the terms at the label's lane. -/
theorem pickOf_apply (c : Nat) (hc : c ≤ 25600) (lab : IVec S64x1 32) (v : Vec Ideal S64x6400 .f32) (p : Fin 64)
    (hl : (lab (ix2 p (0 : Fin 1))).toNat < 32000) :
    pickOf (BitVec.ofNat 32 c) lab v (ix2 p (0 : Fin 1))
      = ∑ q : Fin 6400, if c + q.val = (lab (ix2 p (0 : Fin 1))).toNat then v (ix2 p q) else 0 := by
  unfold pickOf
  rw [rowsOf_apply]
  refine Finset.sum_congr rfl fun q _ => ?_
  show Scalar.select (maskOf (BitVec.ofNat 32 c) lab (ix2 p q)) (v (ix2 p q)) (Ideal.ofBits .f32 0x00000000#32) = _
  rw [mask_bit c hc lab p q hl, Ideal.ofBits_zero_f32]
  by_cases h : c + q.val = (lab (ix2 p (0 : Fin 1))).toNat
  · rw [if_pos h, if_pos h]; exact select_one _ _
  · rw [if_neg h, if_neg h]; exact select_zero _ _

theorem sumVec_apply (a1 a2 a3 a4 a5 : Vec Ideal S64x6400 .f32) (p : Fin 64) :
    sumVec a1 a2 a3 a4 a5 (ix2 p (0 : Fin 1))
      = ((((0 + ∑ q : Fin 6400, a1 (ix2 p q)) + ∑ q : Fin 6400, a2 (ix2 p q)) + ∑ q : Fin 6400, a3 (ix2 p q))
          + ∑ q : Fin 6400, a4 (ix2 p q)) + ∑ q : Fin 6400, a5 (ix2 p q) := by
  show ((((Ideal.ofBits .f32 0x00000000#32 + rowsOf a1 (ix2 p (0 : Fin 1))) + rowsOf a2 (ix2 p (0 : Fin 1))) + rowsOf a3 (ix2 p (0 : Fin 1)))
      + rowsOf a4 (ix2 p (0 : Fin 1))) + rowsOf a5 (ix2 p (0 : Fin 1)) = _
  simp only [rowsOf_apply, Ideal.ofBits_zero_f32]

theorem pickVec_apply (lab : IVec S64x1 32) (a1 a2 a3 a4 a5 : Vec Ideal S64x6400 .f32) (p : Fin 64)
    (hl : (lab (ix2 p (0 : Fin 1))).toNat < 32000) :
    pickVec lab a1 a2 a3 a4 a5 (ix2 p (0 : Fin 1))
      = ((((0 + ∑ q : Fin 6400, if 0 + q.val = (lab (ix2 p (0 : Fin 1))).toNat then a1 (ix2 p q) else 0)
            + ∑ q : Fin 6400, if 6400 + q.val = (lab (ix2 p (0 : Fin 1))).toNat then a2 (ix2 p q) else 0)
            + ∑ q : Fin 6400, if 12800 + q.val = (lab (ix2 p (0 : Fin 1))).toNat then a3 (ix2 p q) else 0)
            + ∑ q : Fin 6400, if 19200 + q.val = (lab (ix2 p (0 : Fin 1))).toNat then a4 (ix2 p q) else 0)
            + ∑ q : Fin 6400, if 25600 + q.val = (lab (ix2 p (0 : Fin 1))).toNat then a5 (ix2 p q) else 0 := by
  show ((((Ideal.ofBits .f32 0x00000000#32 + pickOf (BitVec.ofNat 32 0) lab a1 (ix2 p (0 : Fin 1))) + pickOf (BitVec.ofNat 32 6400) lab a2 (ix2 p (0 : Fin 1)))
      + pickOf (BitVec.ofNat 32 12800) lab a3 (ix2 p (0 : Fin 1))) + pickOf (BitVec.ofNat 32 19200) lab a4 (ix2 p (0 : Fin 1)))
      + pickOf (BitVec.ofNat 32 25600) lab a5 (ix2 p (0 : Fin 1)) = _
  rw [pickOf_apply 0 (by omega) lab a1 p hl, pickOf_apply 6400 (by omega) lab a2 p hl, pickOf_apply 12800 (by omega) lab a3 p hl,
    pickOf_apply 19200 (by omega) lab a4 p hl, pickOf_apply 25600 (by omega) lab a5 p hl, Ideal.ofBits_zero_f32]

theorem scaleVec_apply (lab : IVec S64x1 32) (a1 a2 a3 a4 a5 : Vec Ideal S64x6400 .f32) (p : Fin 64) :
    scaleVec lab a1 a2 a3 a4 a5 (ix2 p (0 : Fin 1))
      = Ideal.div alpha (one + sumVec a1 a2 a3 a4 a5 (ix2 p (0 : Fin 1)) - two * pickVec lab a1 a2 a3 a4 a5 (ix2 p (0 : Fin 1))) := rfl

theorem corrVec_apply (lab : IVec S64x1 32) (a1 a2 a3 a4 a5 : Vec Ideal S64x6400 .f32) (p : Fin 64) :
    corrVec lab a1 a2 a3 a4 a5 (ix2 p (0 : Fin 1))
      = one - scaleVec lab a1 a2 a3 a4 a5 (ix2 p (0 : Fin 1)) * sumVec a1 a2 a3 a4 a5 (ix2 p (0 : Fin 1)) := rfl

/-- One entry of an output chunk: s·x, plus corr at the label's lane. -/
theorem outChunk_apply (c : Nat) (hc : c ≤ 25600) (lab : IVec S64x1 32) (s corr : FVec Ideal S64x1 .f32) (v : Vec Ideal S64x6400 .f32)
    (p : Fin 64) (q : Fin 6400) (hl : (lab (ix2 p (0 : Fin 1))).toNat < 32000) :
    outChunk (BitVec.ofNat 32 c) lab s corr v (ix2 p q)
      = s (ix2 p (0 : Fin 1)) * v (ix2 p q) + if c + q.val = (lab (ix2 p (0 : Fin 1))).toNat then corr (ix2 p (0 : Fin 1)) else 0 := by
  show broadcastTo S64x6400 s broadcasts_S64x1_S64x6400 (ix2 p q) * v (ix2 p q)
      + broadcastTo S64x6400 corr broadcasts_S64x1_S64x6400 (ix2 p q)
        * (((((maskOf (BitVec.ofNat 32 c) lab (ix2 p q)).setWidth 32).toInt : ℝ)) : EReal) = _
  rw [col_bcast, col_bcast, mask_bit c hc lab p q hl]
  by_cases h : c + q.val = (lab (ix2 p (0 : Fin 1))).toNat
  · rw [if_pos h, if_pos h]
    have : (((1#1 : BitVec 1).setWidth 32).toInt : ℝ) = 1 := by norm_num [show ((1#1 : BitVec 1).setWidth 32).toInt = 1 from by decide]
    rw [this, EReal.coe_one, mul_one]
  · rw [if_neg h, if_neg h]
    have : (((0#1 : BitVec 1).setWidth 32).toInt : ℝ) = 0 := by norm_num [show ((0#1 : BitVec 1).setWidth 32).toInt = 0 from by decide]
    rw [this, EReal.coe_zero, mul_zero]

end Cert.KernelIdeal.Body
end
-- ==== Proof.ChunkSums.lean ====
/-
  Two facts about sums over a row of 32000 columns cut into five chunks of 6400 columns.

  The columns of a row are in bijection with the pairs (chunk k, column q inside the chunk) by
  (k, q) ↦ 6400·k + q. Reindexing a sum along this bijection and writing out the five values of k gives
  the row's sum as the five chunk sums added left to right from zero. Applied to a function that
  vanishes off one column ℓ, the whole sum is the term at ℓ.

  Both facts hold in any additive commutative monoid; nothing about infinities is used.
-/
import proofs.«428629_j901943132312_3_alg».proof.Proof.Rescale
import Mathlib.Algebra.BigOperators.Fin
import Mathlib.Data.Fintype.BigOperators
import Mathlib.Algebra.BigOperators.Group.Finset.Piecewise

noncomputable section

open scoped BigOperators

namespace Cert.Rescale

open Idealize.ShloMosaic Idealize.ShloMosaic.ValueIdx

/-- The bijection (chunk, column inside the chunk) ↦ column: quotient and remainder by 6400 invert it. -/
def chunkEquiv : Fin 5 × Fin 6400 ≃ Fin 32000 where
  toFun p := chunkCol p.1 p.2
  invFun j := (⟨j.val / 6400, by have := j.isLt; omega⟩, ⟨j.val % 6400, by omega⟩)
  left_inv := by
    rintro ⟨k, q⟩
    have hk := k.isLt
    have hq := q.isLt
    refine Prod.ext (Fin.ext ?_) (Fin.ext ?_)
    · show (6400 * k.val + q.val) / 6400 = k.val
      omega
    · show (6400 * k.val + q.val) % 6400 = q.val
      omega
  right_inv := by
    intro j
    refine Fin.ext ?_
    show 6400 * (j.val / 6400) + j.val % 6400 = j.val
    omega

theorem chunkEquiv_apply (k : Fin 5) (q : Fin 6400) : chunkEquiv (k, q) = chunkCol k q := rfl

/-- A row's sum is its five chunk sums, added left to right starting from zero. -/
theorem sum_chunks (f : Fin 32000 → EReal) :
    ∑ j : Fin 32000, f j =
      ((((0 + ∑ q : Fin 6400, f (chunkCol 0 q)) + ∑ q : Fin 6400, f (chunkCol 1 q)) + ∑ q : Fin 6400, f (chunkCol 2 q))
        + ∑ q : Fin 6400, f (chunkCol 3 q)) + ∑ q : Fin 6400, f (chunkCol 4 q) := by
  rw [← Equiv.sum_comp chunkEquiv f, Fintype.sum_prod_type, Fin.sum_univ_five, zero_add]
  simp only [chunkEquiv_apply]

/-- If every term off column ℓ is replaced by zero, the five chunk sums add up to the term at ℓ. -/
theorem sum_chunks_single (f : Fin 32000 → EReal) (ℓ : Fin 32000) :
    ((((0 + ∑ q : Fin 6400, (if chunkCol 0 q = ℓ then f (chunkCol 0 q) else 0)) + ∑ q : Fin 6400, (if chunkCol 1 q = ℓ then f (chunkCol 1 q) else 0))
        + ∑ q : Fin 6400, (if chunkCol 2 q = ℓ then f (chunkCol 2 q) else 0)) + ∑ q : Fin 6400, (if chunkCol 3 q = ℓ then f (chunkCol 3 q) else 0))
      + ∑ q : Fin 6400, (if chunkCol 4 q = ℓ then f (chunkCol 4 q) else 0) = f ℓ := by
  rw [← sum_chunks (fun j => if j = ℓ then f j else 0)]
  exact Fintype.sum_ite_eq' ℓ f

end Cert.Rescale

end
-- ==== Proof.BlockValue.lean ====
/-
  One block of the kernel's result as a function of the block's labels and logits.

  For a block of 64 rows (x : 64 × 32000, the rows' labels as words), with every label below 32000:
    the five chunk sums of a row add up to the row's sum over all 32000 columns (the columns are the five chunks
    laid end to end), and the five masked chunk sums add up to the row's entry at its label (every other term is zero);
    so the body's column s is α / (1 + S − 2 t) of those, and corr is 1 − s·S.
  The body stores five chunks, the chunk from column c holding s·x[p, c + q] + (corr if c + q is the label, else 0);
  the five stores tile the block, so at every index (p, j) the block holds
    s_p · x[p, j] + (corr_p if j is row p's label, else 0).
-/
import proofs.«428629_j901943132312_3_alg».proof.Proof.BodyTerms
import proofs.«428629_j901943132312_3_alg».proof.Proof.ChunkSums

noncomputable section

open scoped BigOperators

namespace Cert.KernelIdeal.Body

open Cert.KernelIdeal Cert.KernelIdeal.Gen Idealize.ShloMosaic Idealize.ShloMosaic.ValueIdx Cert.Rescale

variable (x0 : Vec Ideal S64x1 .i32) (x1 : Vec Ideal S64x32000 .f32)

/-- Row p's label, as a word. -/
def labW (p : Fin 64) : BitVec 32 := x0 (ix2 p (0 : Fin 1))

/-- Row p's sum over the block's 32000 columns. -/
def bS (p : Fin 64) : EReal := ∑ j : Fin 32000, x1 (ix2 p j)

/-- Row p's label column, clamped into the row. -/
def bCol (p : Fin 64) : Fin 32000 := ⟨min (labW x0 p).toNat 31999, by omega⟩

/-- Row p at its label. -/
def bT (p : Fin 64) : EReal := x1 (ix2 p (bCol x0 p))

/-- Row p's scale. -/
def bScale (p : Fin 64) : EReal := Ideal.div alpha (one + bS x1 p - two * bT x0 x1 p)

/-- Row p's correction. -/
def bCorr (p : Fin 64) : EReal := one - bScale x0 x1 p * bS x1 p

/-- Entry (p, j) of the block's result. -/
def bEntry (p : Fin 64) (j : Fin 32000) : EReal :=
  bScale x0 x1 p * x1 (ix2 p j) + if j.val = (labW x0 p).toNat then bCorr x0 x1 p else 0

/-! ## The five chunk loads -/

theorem ld1 (p : Fin 64) (q : Fin 6400) : View.ld x1 r0_1 (ix2 p q) = x1 (ix2 p (chunkCol 0 q)) :=
  (ld_cols x1 0 inb_S64x32000_S64x6400_0_0 p q (by have := q.isLt; omega)).trans
    (congrArg (fun j => x1 (ix2 p j)) (Fin.ext (by show 0 + q.val = 6400 * 0 + q.val; omega)))
theorem ld2 (p : Fin 64) (q : Fin 6400) : View.ld x1 r0_2 (ix2 p q) = x1 (ix2 p (chunkCol 1 q)) :=
  (ld_cols x1 6400 inb_S64x32000_S64x6400_0_6400 p q (by have := q.isLt; omega)).trans
    (congrArg (fun j => x1 (ix2 p j)) (Fin.ext (by show 6400 + q.val = 6400 * 1 + q.val; omega)))
theorem ld3 (p : Fin 64) (q : Fin 6400) : View.ld x1 r0_3 (ix2 p q) = x1 (ix2 p (chunkCol 2 q)) :=
  (ld_cols x1 12800 inb_S64x32000_S64x6400_0_12800 p q (by have := q.isLt; omega)).trans
    (congrArg (fun j => x1 (ix2 p j)) (Fin.ext (by show 12800 + q.val = 6400 * 2 + q.val; omega)))
theorem ld4 (p : Fin 64) (q : Fin 6400) : View.ld x1 r0_4 (ix2 p q) = x1 (ix2 p (chunkCol 3 q)) :=
  (ld_cols x1 19200 inb_S64x32000_S64x6400_0_19200 p q (by have := q.isLt; omega)).trans
    (congrArg (fun j => x1 (ix2 p j)) (Fin.ext (by show 19200 + q.val = 6400 * 3 + q.val; omega)))
theorem ld5 (p : Fin 64) (q : Fin 6400) : View.ld x1 r0_5 (ix2 p q) = x1 (ix2 p (chunkCol 4 q)) :=
  (ld_cols x1 25600 inb_S64x32000_S64x6400_0_25600 p q (by have := q.isLt; omega)).trans
    (congrArg (fun j => x1 (ix2 p j)) (Fin.ext (by show 25600 + q.val = 6400 * 4 + q.val; omega)))

/-! ## S, t, s and corr of the block -/

/-- The five chunk sums add up to the row's sum. -/
theorem sum_row (p : Fin 64) :
    sumVec (View.ld x1 r0_1) (View.ld x1 r0_2) (View.ld x1 r0_3) (View.ld x1 r0_4) (View.ld x1 r0_5) (ix2 p (0 : Fin 1)) = bS x1 p := by
  rw [sumVec_apply]
  simp only [ld1 x1 p, ld2 x1 p, ld3 x1 p, ld4 x1 p, ld5 x1 p]
  exact (sum_chunks (fun j => x1 (ix2 p j))).symm

/-- "c + q is the label" says that chunk k's column q is the label's column. -/
theorem col_iff (k : Fin 5) (q : Fin 6400) (n : Nat) (hn : n < 32000) (c : Nat) (hc : c = 6400 * k.val) :
    c + q.val = n ↔ chunkCol k q = ⟨n, hn⟩ := by
  subst hc
  constructor
  · intro h; exact Fin.ext h
  · intro h; exact congrArg Fin.val h

/-- The five masked chunk sums add up to the row's entry at its label. -/
theorem pick_row (p : Fin 64) (hl : (labW x0 p).toNat < 32000) :
    pickVec x0 (View.ld x1 r0_1) (View.ld x1 r0_2) (View.ld x1 r0_3) (View.ld x1 r0_4) (View.ld x1 r0_5) (ix2 p (0 : Fin 1)) = bT x0 x1 p := by
  rw [pickVec_apply x0 _ _ _ _ _ p hl]
  simp only [ld1 x1 p, ld2 x1 p, ld3 x1 p, ld4 x1 p, ld5 x1 p]
  have e0 : (∑ q : Fin 6400, if 0 + q.val = (x0 (ix2 p (0 : Fin 1)) : BitVec 32).toNat then x1 (ix2 p (chunkCol 0 q)) else 0)
      = ∑ q : Fin 6400, if chunkCol 0 q = ⟨(labW x0 p).toNat, hl⟩ then x1 (ix2 p (chunkCol 0 q)) else 0 :=
    Finset.sum_congr rfl fun q _ => if_congr (col_iff 0 q _ hl 0 rfl) rfl rfl
  have e1 : (∑ q : Fin 6400, if 6400 + q.val = (x0 (ix2 p (0 : Fin 1)) : BitVec 32).toNat then x1 (ix2 p (chunkCol 1 q)) else 0)
      = ∑ q : Fin 6400, if chunkCol 1 q = ⟨(labW x0 p).toNat, hl⟩ then x1 (ix2 p (chunkCol 1 q)) else 0 :=
    Finset.sum_congr rfl fun q _ => if_congr (col_iff 1 q _ hl 6400 rfl) rfl rfl
  have e2 : (∑ q : Fin 6400, if 12800 + q.val = (x0 (ix2 p (0 : Fin 1)) : BitVec 32).toNat then x1 (ix2 p (chunkCol 2 q)) else 0)
      = ∑ q : Fin 6400, if chunkCol 2 q = ⟨(labW x0 p).toNat, hl⟩ then x1 (ix2 p (chunkCol 2 q)) else 0 :=
    Finset.sum_congr rfl fun q _ => if_congr (col_iff 2 q _ hl 12800 rfl) rfl rfl
  have e3 : (∑ q : Fin 6400, if 19200 + q.val = (x0 (ix2 p (0 : Fin 1)) : BitVec 32).toNat then x1 (ix2 p (chunkCol 3 q)) else 0)
      = ∑ q : Fin 6400, if chunkCol 3 q = ⟨(labW x0 p).toNat, hl⟩ then x1 (ix2 p (chunkCol 3 q)) else 0 :=
    Finset.sum_congr rfl fun q _ => if_congr (col_iff 3 q _ hl 19200 rfl) rfl rfl
  have e4 : (∑ q : Fin 6400, if 25600 + q.val = (x0 (ix2 p (0 : Fin 1)) : BitVec 32).toNat then x1 (ix2 p (chunkCol 4 q)) else 0)
      = ∑ q : Fin 6400, if chunkCol 4 q = ⟨(labW x0 p).toNat, hl⟩ then x1 (ix2 p (chunkCol 4 q)) else 0 :=
    Finset.sum_congr rfl fun q _ => if_congr (col_iff 4 q _ hl 25600 rfl) rfl rfl
  rw [e0, e1, e2, e3, e4, sum_chunks_single (fun j => x1 (ix2 p j)) ⟨(labW x0 p).toNat, hl⟩]
  unfold bT
  refine congrArg (fun j => x1 (ix2 p j)) (Fin.ext ?_)
  show (labW x0 p).toNat = min (labW x0 p).toNat 31999
  omega

theorem scale_row (p : Fin 64) (hl : (labW x0 p).toNat < 32000) :
    scaleVec x0 (View.ld x1 r0_1) (View.ld x1 r0_2) (View.ld x1 r0_3) (View.ld x1 r0_4) (View.ld x1 r0_5) (ix2 p (0 : Fin 1)) = bScale x0 x1 p := by
  rw [scaleVec_apply, sum_row, pick_row x0 x1 p hl]
  rfl

theorem corr_row (p : Fin 64) (hl : (labW x0 p).toNat < 32000) :
    corrVec x0 (View.ld x1 r0_1) (View.ld x1 r0_2) (View.ld x1 r0_3) (View.ld x1 r0_4) (View.ld x1 r0_5) (ix2 p (0 : Fin 1)) = bCorr x0 x1 p := by
  rw [corrVec_apply, scale_row x0 x1 p hl, sum_row]
  rfl

/-! ## The block's result at an index -/

/-- The labels column the body works with. -/
abbrev LAB : IVec S64x1 32 := k0_pay3 (F := Ideal) (View.ld x0 r0_0)

set_option maxRecDepth 65536 in
/-- What the body leaves in the output block: five chunks, each s·a_k + corr·mask_k. -/
theorem out_eq :
    out0_2 (F := Ideal) x0 x1 = View.canon
      [⟨r0_5, outChunk 25600#32 (LAB x0) (scaleVec (LAB x0) (View.ld x1 r0_1) (View.ld x1 r0_2) (View.ld x1 r0_3) (View.ld x1 r0_4) (View.ld x1 r0_5))
          (corrVec (LAB x0) (View.ld x1 r0_1) (View.ld x1 r0_2) (View.ld x1 r0_3) (View.ld x1 r0_4) (View.ld x1 r0_5)) (View.ld x1 r0_5)⟩,
        ⟨r0_4, outChunk 19200#32 (LAB x0) (scaleVec (LAB x0) (View.ld x1 r0_1) (View.ld x1 r0_2) (View.ld x1 r0_3) (View.ld x1 r0_4) (View.ld x1 r0_5))
          (corrVec (LAB x0) (View.ld x1 r0_1) (View.ld x1 r0_2) (View.ld x1 r0_3) (View.ld x1 r0_4) (View.ld x1 r0_5)) (View.ld x1 r0_4)⟩,
        ⟨r0_3, outChunk 12800#32 (LAB x0) (scaleVec (LAB x0) (View.ld x1 r0_1) (View.ld x1 r0_2) (View.ld x1 r0_3) (View.ld x1 r0_4) (View.ld x1 r0_5))
          (corrVec (LAB x0) (View.ld x1 r0_1) (View.ld x1 r0_2) (View.ld x1 r0_3) (View.ld x1 r0_4) (View.ld x1 r0_5)) (View.ld x1 r0_3)⟩,
        ⟨r0_2, outChunk 6400#32 (LAB x0) (scaleVec (LAB x0) (View.ld x1 r0_1) (View.ld x1 r0_2) (View.ld x1 r0_3) (View.ld x1 r0_4) (View.ld x1 r0_5))
          (corrVec (LAB x0) (View.ld x1 r0_1) (View.ld x1 r0_2) (View.ld x1 r0_3) (View.ld x1 r0_4) (View.ld x1 r0_5)) (View.ld x1 r0_2)⟩,
        ⟨r0_1, outChunk 0#32 (LAB x0) (scaleVec (LAB x0) (View.ld x1 r0_1) (View.ld x1 r0_2) (View.ld x1 r0_3) (View.ld x1 r0_4) (View.ld x1 r0_5))
          (corrVec (LAB x0) (View.ld x1 r0_1) (View.ld x1 r0_2) (View.ld x1 r0_3) (View.ld x1 r0_4) (View.ld x1 r0_5)) (View.ld x1 r0_1)⟩] := rfl

/-- The block's result as one function of the block index. -/
def bG : S64x32000.Idx → EReal := fun y => bEntry x0 x1 ⟨(y 0).val, idx2_lt0 y⟩ ⟨(y 1).val, idx2_lt1 y⟩

/-- The chunk stored from column c on agrees with the block's function through its rectangle. -/
theorem piece_value (hx0 : ∀ p : Fin 64, (labW x0 p).toNat < 32000) (c : Nat) (hc : c ≤ 25600)
    (inb : ∀ a, (![0, c] : Fin 2 → Nat) a + S64x6400.size a ≤ S64x32000.size a) (p : Fin 64) (q : Fin 6400) :
    outChunk (BitVec.ofNat 32 c) x0 (scaleVec x0 (View.ld x1 r0_1) (View.ld x1 r0_2) (View.ld x1 r0_3) (View.ld x1 r0_4) (View.ld x1 r0_5))
        (corrVec x0 (View.ld x1 r0_1) (View.ld x1 r0_2) (View.ld x1 r0_3) (View.ld x1 r0_4) (View.ld x1 r0_5))
        (View.ld x1 (Rect.unit (s := S64x32000) ![0, c] S64x6400.size inb)) (ix2 p q)
      = bG x0 x1 ((Rect.unit (s := S64x32000) ![0, c] S64x6400.size inb).emb (ix2 p q)) := by
  have hq := q.isLt
  have h : c + q.val < 32000 := by omega
  rw [outChunk_apply c hc x0 _ _ _ p q (hx0 p), scale_row x0 x1 p (hx0 p), corr_row x0 x1 p (hx0 p), ld_cols x1 c inb p q h]
  unfold bG
  have e0 : (⟨((Rect.unit (s := S64x32000) ![0, c] S64x6400.size inb).emb (ix2 p q) 0).val, idx2_lt0 _⟩ : Fin 64) = p :=
    Fin.ext (by show 0 + 1 * p.val = p.val; omega)
  have e1 : (⟨((Rect.unit (s := S64x32000) ![0, c] S64x6400.size inb).emb (ix2 p q) 1).val, idx2_lt1 _⟩ : Fin 32000) = ⟨c + q.val, h⟩ :=
    Fin.ext (by show c + 1 * q.val = c + q.val; omega)
  rw [e0, e1]
  rfl

/-- THE BLOCK: under labels in range, entry (p, j) of what the body stores is the block's function there. -/
theorem block_value (hx0 : ∀ p : Fin 64, (labW x0 p).toNat < 32000) (y : S64x32000.Idx) :
    out0_2 (F := Ideal) x0 x1 y = bG x0 x1 y := by
  rw [out_eq]
  have hlab : LAB x0 = x0 := lab_eq x0
  rw [hlab]
  refine View.canon_apply_of_pieces (Val := Elt Ideal) (S := S64x32000) (e := .f32) (bG x0 x1) _ ?_ y (cover0_2 _ _ _ _ _ y)
  intro pc hpc
  simp only [List.mem_cons, List.not_mem_nil, or_false] at hpc
  rcases hpc with rfl | rfl | rfl | rfl | rfl
  · intro x
    obtain ⟨p', q, rfl⟩ : ∃ (p' : Fin 64) (q : Fin 6400), x = ix2 p' q := ⟨x 0, x 1, eq_ix2 x⟩
    exact piece_value x0 x1 hx0 25600 (by omega) inb_S64x32000_S64x6400_0_25600 p' q
  · intro x
    obtain ⟨p', q, rfl⟩ : ∃ (p' : Fin 64) (q : Fin 6400), x = ix2 p' q := ⟨x 0, x 1, eq_ix2 x⟩
    exact piece_value x0 x1 hx0 19200 (by omega) inb_S64x32000_S64x6400_0_19200 p' q
  · intro x
    obtain ⟨p', q, rfl⟩ : ∃ (p' : Fin 64) (q : Fin 6400), x = ix2 p' q := ⟨x 0, x 1, eq_ix2 x⟩
    exact piece_value x0 x1 hx0 12800 (by omega) inb_S64x32000_S64x6400_0_12800 p' q
  · intro x
    obtain ⟨p', q, rfl⟩ : ∃ (p' : Fin 64) (q : Fin 6400), x = ix2 p' q := ⟨x 0, x 1, eq_ix2 x⟩
    exact piece_value x0 x1 hx0 6400 (by omega) inb_S64x32000_S64x6400_0_6400 p' q
  · intro x
    obtain ⟨p', q, rfl⟩ : ∃ (p' : Fin 64) (q : Fin 6400), x = ix2 p' q := ⟨x 0, x 1, eq_ix2 x⟩
    exact piece_value x0 x1 hx0 0 (by omega) inb_S64x32000_S64x6400_0_0 p' q

end Cert.KernelIdeal.Body
end
-- ==== Proof.LabelsWindow.lean ====
/-
  The labels as the region's first window finds them.

  Before its one region the program clamps the labels into [0, 31999], read signed: the maximum with a broadcast 0,
  then the minimum with a broadcast 31999; the result, a vector of 4096 words, is then reshaped to a 4096 × 1 array,
  and that array is what window 0 stages. Row r, column 0 of the reshaped array has the same row-major position as
  entry r of the vector, so it is the clamp of label r; and on a label that is already below 32000 read unsigned
  (hence nonnegative and at most 31999 read signed) the clamp changes nothing. So window 0's array at (r, 0) is the
  label of row r as launched.
-/
import proofs.«428629_j901943132312_3_alg».proof.Proof.Gen.KernelIdeal.Frame
import Idealize.ShloMosaic.Lib.ValueIdx
import Idealize.ShloMosaic.Lib.Pipeline.Value
import Idealize.ShloMosaic.Lib.StableHlo.Predicate
import Idealize.ShloMosaic.Lib.StableHlo.Run

noncomputable section

namespace Cert.KernelIdeal.Body

open Cert.KernelIdeal Cert.KernelIdeal.Gen Idealize.ShloMosaic Idealize.ShloMosaic.TcCoe Idealize.SL.Sem Idealize.ShloMosaic.ValueIdx

variable {F : FTy → Type} [FloatOps F]

/-- A word below 32000 read unsigned is left alone by the signed clamp to [0, 31999]: it is nonnegative read
    signed, so the maximum with 0 is the word, and it is at most 31999, so the minimum with 31999 is the word. -/
theorem clamp_id (w : BitVec 32) (h : w.toNat < 32000) :
    IntOp.minsi 31999#32 (IntOp.maxsi 0#32 w) = w := by
  have hti : w.toInt = w.toNat := StableHlo.Predicate.toInt_eq_toNat_of_lt (by omega)
  have h0 : (0#32 : BitVec 32).toInt = 0 := by decide
  have h1 : (31999#32 : BitVec 32).toInt = 31999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h1, decide_eq_true_eq]
  omega

/-- The whole array window 0 stages: the launched labels clamped entry by entry, reshaped to one column. -/
theorem window_array (m : (ℓ : Loc nD τ sig) → Buf (Elt F) ℓ) (c : Dev nD) :
    (V m c main_v1 : S4096x1.Idx → BitVec 32) =
      shapeCast S4096x1
        (minsi (broadcastInDim S4096 ![] bcast_S_S4096 (constantI S_ 32 31999#32))
          (maxsi (broadcastInDim S4096 ![] bcast_S_S4096 (constantI S_ 32 0#32))
            (m ((c : Thread nD τ).loc main_arg1) : S4096.Idx → BitVec 32)))
        shapeCasts_S4096_S4096x1 := by
  dsimp only [Gen.V]
  simp only [Gen.hostOps0, Gen.hostOps0_1, Gen.hostOps0_2, List.flatten_cons, List.flatten_nil, List.append_nil,
    List.cons_append, List.nil_append]
  after_results
  rfl

/-- Window 0's array at row r, column 0 is the launched label of row r, when that label is below 32000. -/
theorem labels_window (m : (ℓ : Loc nD τ sig) → Buf (Elt F) ℓ) (c : Dev nD) (r : Fin 4096)
    (h : ((m ((c : Thread nD τ).loc main_arg1) : S4096.Idx → BitVec 32) (ix1 r)).toNat < 32000) :
    (V m c main_v1 : S4096x1.Idx → BitVec 32) (ix2 r (0 : Fin 1))
      = (m ((c : Thread nD τ).loc main_arg1) : S4096.Idx → BitVec 32) (ix1 r) := by
  rw [window_array m c]
  -- position r·1 + 0 of the column is position r of the vector
  rw [shapeCast_apply _ _ (ix2 r (0 : Fin 1)) (ix1 r) (by
    rw [Shape.rowMajor_val_one, Shape.rowMajor_val_two]
    show r.val = r.val * 1 + 0
    omega)]
  exact clamp_id _ h

end Cert.KernelIdeal.Body

end
-- ==== Proof.KernelValue.lean ====
/-
  The kernel's output array as one function of the launched arrays.

  The grid has 64 points; at point t every window's block index is (t, 0), so block t is rows 64 t … 64 t + 63 of its
  array: the logits' block reads the launched logits there, and the labels' block reads the labels after the clamp into
  [0, 31999] that precedes the region, which leaves a label below 32000 as it was. With every label in range a block's
  row sum, label column, entry at the label, scale and correction are the array's at row 64 t + p, so what point t
  writes back is block t of the whole result G of the launched arrays. The 64 blocks tile the 4096 rows (row r lies
  in block r / 64), so after the run the output array is G.
-/
import proofs.«428629_j901943132312_3_alg».proof.Proof.Gen.KernelIdeal.Value
import proofs.«428629_j901943132312_3_alg».proof.Proof.BlockValue
import proofs.«428629_j901943132312_3_alg».proof.Proof.LabelsWindow

noncomputable section

open scoped BigOperators

namespace Cert.KernelIdeal.Body

open Cert.KernelIdeal Cert.KernelIdeal.Gen Idealize.ShloMosaic Idealize.ShloMosaic.TcCoe Idealize.SL.Sem Idealize.ShloMosaic.ValueIdx Cert.Rescale
open Idealize.ShloMosaic.Pipeline (Dat)

variable (m : (ℓ : Loc nD τ sig) → Buf (Elt Ideal) ℓ) (ρ : Dev nD → PrngReg)

/-- The logits as launched. -/
abbrev logits (c : Dev nD) : S4096x32000.Idx → EReal := m ((c : Thread nD τ).loc main_arg0)
/-- The labels as launched. -/
abbrev labels (c : Dev nD) : S4096.Idx → BitVec 32 := m ((c : Thread nD τ).loc main_arg1)
/-- The labels' block at a grid point. -/
abbrev lblk (c : Dev nD) (t : Fin cfg0.N) : Vec Ideal S64x1 .i32 := iblk m c 0 t
/-- The logits' block at a grid point. -/
abbrev xblk (c : Dev nD) (t : Fin cfg0.N) : Vec Ideal S64x32000 .f32 := iblk m c 1 t

/-- Every window's block index at grid point t is (t, 0): block t is rows 64 t … 64 t + 63. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of block t is row 64 t + p of the array. -/
def rowOf (t : Fin cfg0.N) (p : Fin 64) : Fin 4096 := ⟨64 * t.val + p.val, by have ht : t.val < 64 := t.isLt; have := p.isLt; show _ < 4096; omega⟩

/-- The logits' block read at (p, j). -/
theorem xblk_apply (c : Dev nD) (t : Fin cfg0.N) (p : Fin 64) (j : Fin 32000) :
    xblk m c t (ix2 p j) = logits m c (ix2 (rowOf t p) j) := by
  show V m c main_arg0 (((cfg0.win 1).blk t).view.emb (ix2 p j)) = _
  rw [V_main_arg0]
  obtain ⟨e00, e01, e10, e11, e20, e21⟩ := idx_facts t
  refine congrArg (logits m c) (funext fun a => Fin.ext ?_)
  match a with
  | ⟨0, _⟩ => show win0_1.index t (0 : Fin 2) * 64 + 1 * p.val = 64 * t.val + p.val; omega
  | ⟨1, _⟩ => show win0_1.index t (1 : Fin 2) * 32000 + 1 * j.val = j.val; omega

/-- The labels' block read at row p, for a label in range: the launched label of row 64 t + p (the clamp before the
    region does nothing to it). -/
theorem lblk_apply (c : Dev nD) (t : Fin cfg0.N) (p : Fin 64) (h : (labels m c (ix1 (rowOf t p))).toNat < 32000) :
    lblk m c t (ix2 p (0 : Fin 1)) = labels m c (ix1 (rowOf t p)) := by
  show (V m c main_v1 : S4096x1.Idx → BitVec 32) (((cfg0.win 0).blk t).view.emb (ix2 p (0 : Fin 1))) = _
  obtain ⟨e00, e01, e10, e11, e20, e21⟩ := idx_facts t
  have hemb : ((cfg0.win 0).blk t).view.emb (ix2 p (0 : Fin 1)) = ix2 (rowOf t p) (0 : Fin 1) := by
    funext a; apply Fin.ext
    match a with
    | ⟨0, _⟩ => show win0_0.index t (0 : Fin 2) * 64 + 1 * p.val = 64 * t.val + p.val; omega
    | ⟨1, _⟩ => show win0_0.index t (1 : Fin 2) * 1 + 1 * 0 = 0; omega
  rw [hemb]
  exact labels_window m c (rowOf t p) h

section
variable (c : Dev nD) (hlab : ∀ r : Fin 4096, (labels m c (ix1 r)).toNat < 32000)
include hlab

/-- A block's row quantities are the array's row quantities. -/
theorem labW_eq (t : Fin cfg0.N) (p : Fin 64) : labW (lblk m c t) p = labels m c (ix1 (rowOf t p)) :=
  lblk_apply m c t p (hlab _)

theorem bS_eq (t : Fin cfg0.N) (p : Fin 64) : bS (xblk m c t) p = rowSum (logits m c) (rowOf t p) :=
  Finset.sum_congr rfl fun j _ => xblk_apply m c t p j

theorem bT_eq (t : Fin cfg0.N) (p : Fin 64) : bT (lblk m c t) (xblk m c t) p = atLabel (logits m c) (labels m c) (rowOf t p) := by
  unfold bT atLabel
  rw [xblk_apply]
  refine congrArg (fun j => logits m c (ix2 (rowOf t p) j)) (Fin.ext ?_)
  show min (labW (lblk m c t) p).toNat 31999 = min (labels m c (ix1 (rowOf t p))).toNat 31999
  rw [labW_eq m c hlab t p]

/-- Entry (p, j) of block t's result is entry (64 t + p, j) of the whole result. -/
theorem bEntry_eq (t : Fin cfg0.N) (p : Fin 64) (j : Fin 32000) :
    bEntry (lblk m c t) (xblk m c t) p j = entry (logits m c) (labels m c) (rowOf t p) j := by
  unfold bEntry entry bCorr corr bScale scale
  rw [bS_eq m c hlab t p, bT_eq m c hlab t p, labW_eq m c hlab t p, xblk_apply]

/-- WHAT POINT t WRITES BACK is block t of the whole result G of the launched arrays. -/
theorem flushed_eq (t : Fin cfg0.N) :
    (dats m 0 c).flushed 2 t = ((cfg0.win 2).blk t).view.read (Elt Ideal) (G (logits m c) (labels m c)) := by
  rw [Cert.KernelIdeal.Value.flushed2]
  funext y
  show out0_2 (F := Ideal) (lblk m c t) (xblk m c t) y = G (logits m c) (labels m c) (((cfg0.win 2).blk t).view.emb y)
  refine (block_value (lblk m c t) (xblk m c t) (fun p => by rw [labW_eq m c hlab t p]; exact hlab _) y).trans ?_
  obtain ⟨p, j, rfl⟩ : ∃ (p : Fin 64) (j : Fin 32000), y = ix2 p j := ⟨y 0, y 1, eq_ix2 y⟩
  obtain ⟨e00, e01, e10, e11, e20, e21⟩ := idx_facts t
  have hemb : ((cfg0.win 2).blk t).view.emb (ix2 p j) = ix2 (rowOf t p) j := by
    funext a; apply Fin.ext
    match a with
    | ⟨0, _⟩ => show win0_2.index t (0 : Fin 2) * 64 + 1 * p.val = 64 * t.val + p.val; omega
    | ⟨1, _⟩ => show win0_2.index t (1 : Fin 2) * 32000 + 1 * j.val = j.val; omega
  rw [hemb, G_apply]
  exact bEntry_eq m c hlab t p j

end

/-- An index of the array is in point t's block iff each coordinate is in the block's range on its axis. -/
theorem mem_blk (t : Fin cfg0.N) (i : S4096x32000.Idx) :
    i ∈ ((cfg0.win 2).blk t).view.set ↔ ∀ a : Fin 2, win0_2.index t a * S64x32000.size a ≤ (i a).val ∧ (i a).val < win0_2.index t a * S64x32000.size a + S64x32000.size a := by
  show i ∈ ((View.whole main_v2).slice (win0_2.rect t)).set ↔ _
  rw [View.set_slice_whole, Rect.mem_set_unit]
  exact Iff.rfl

/-- The 64 blocks of 64 rows tile the array: row r lies in block r / 64. -/
theorem covered (i : S4096x32000.Idx) :
    ∃ t : Fin cfg0.N, (cfg0.win 2).flush t = true ∧ i ∈ ((cfg0.win 2).blk t).view.set := by
  have hi0 : (i 0).val < 4096 := idx2_lt0 i
  have hi1 : (i 1).val < 32000 := idx2_lt1 i
  let t : Fin cfg0.N := ⟨(i 0).val / 64, by show _ < 64; omega⟩
  obtain ⟨e00, e01, e10, e11, e20, e21⟩ := idx_facts t
  have ht : t.val = (i 0).val / 64 := rfl
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 32000 ≤ (i 1).val ∧ (i 1).val < win0_2.index t (1 : Fin 2) * 32000 + 32000; omega

/-- THE ARRAY after the run is G of the launched arrays, when every label is in range. -/
theorem final (c : Dev nD) (hlab : ∀ r : Fin 4096, (labels m c (ix1 r)).toNat < 32000) :
    (dats m 0 c).arrAt 2 cfg0.N = G (logits m c) (labels m c) :=
  (dats m 0 c).arrAt_eq_of_cover 2 (G (logits m c) (labels m c)) (fun t _ => flushed_eq m c hlab t) covered

/-- The kernel's run with its result named: the output array ends at G of the launched arrays, the arguments unchanged. -/
theorem run (hlab : ∀ (c : Dev nD) (r : Fin 4096), (labels m c (ix1 r)).toNat < 32000) :
    θ_run defs (onTc (τ := τ) (main (F := Ideal))) ⟨m, fun _ => 0, ρ⟩ fun r => ∀ c : Dev nD,
      r.2.mem ((c : Thread nD τ).loc main_v2) = G (logits m c) (labels m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hlab c)), (h c).2⟩)
    (Cert.KernelIdeal.Value.run_blocks m ρ)

end Cert.KernelIdeal.Body
end
-- ==== Proof.ScatterRead.lean ====
/-
  The reference's scatter, read at one entry.

  The reference adds corr_r into out[r, label_r] with an accumulating scatter: operand the scaled logits
  (4096 rows of 32000 columns), updates the 4096 corrections, and for update r' a start index of two components,
  (r', label_{r'}), both axes of the operand inserted. The start index is assembled from two columns laid side by
  side: the row numbers 0 … 4095 and the labels, each behind a wrap "if negative, add the extent". A row number
  is never negative, and a label below 32000 is not negative as a signed word, so both wraps are the identity.

  Update r' therefore lands at entry (r', label_{r'}): on each axis the start component read signed plus a window
  coordinate that is 0. So the updates landing at (r, j) are update r alone when j = label_r and none otherwise,
  and the scatter's sum over them is corr_r or 0.
-/
import proofs.«428629_j901943132312_3_alg».proof.Proof.Gen.ReferenceIdeal.Read
import Idealize.ShloMosaic.Lib.ValueIdx
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StableHlo

/-- The scatter's dimension numbers: no window axis in the updates, both operand axes inserted, start component c for operand axis c,
    the start index along axis 1 of the scatter indices. -/
abbrev sd : ScatterDims S4096x32000 S4096x2 S4096 := scatter_S4096x32000_S4096x2_S4096_n_01_01_1

/-- Both operand axes are inserted, so the window coordinate is 0 on each. -/
theorem sd_window (u : S4096.Idx) (a : Fin 2) : sd.window u a = 0 := by
  unfold ScatterDims.window
  rw [dif_neg (by revert a; decide)]

/-- On operand axis 0 the start of update r' is component 0 of its start index, read signed. -/
theorem sd_start_zero (idx : IVec S4096x2 32) (r' : Fin 4096) :
    sd.start (ix1 r') idx 0 = (idx (ix2 r' (0 : Fin 2))).toInt := by
  unfold ScatterDims.start
  rw [dif_pos (show (0 : Fin 2) ∈ sd.scatterDimsToOperandDims by decide)]
  congr 2
  funext b; refine Fin.ext ?_
  match b with
  | ⟨0, _⟩ => rfl
  | ⟨1, _⟩ => rfl

/-- On operand axis 1 the start of update r' is component 1 of its start index, read signed. -/
theorem sd_start_one (idx : IVec S4096x2 32) (r' : Fin 4096) :
    sd.start (ix1 r') idx 1 = (idx (ix2 r' (1 : Fin 2))).toInt := by
  unfold ScatterDims.start
  rw [dif_pos (show (1 : Fin 2) ∈ sd.scatterDimsToOperandDims by decide)]
  congr 2
  funext b; refine Fin.ext ?_
  match b with
  | ⟨0, _⟩ => rfl
  | ⟨1, _⟩ => rfl

/-- An update whose two start components are a row and a column of the operand lands at that entry. -/
theorem sd_resultIdx? (idx : IVec S4096x2 32) (r' : Fin 4096) (c : Fin 32000)
    (h0 : (idx (ix2 r' (0 : Fin 2))).toInt = (r'.val : Int)) (h1 : (idx (ix2 r' (1 : Fin 2))).toInt = (c.val : Int)) :
    sd.resultIdx? (ix1 r') idx = some (ix2 r' c) := by
  have hall : ∀ a, 0 ≤ sd.start (ix1 r') idx a + sd.window (ix1 r') a ∧
      sd.start (ix1 r') idx a + sd.window (ix1 r') a < S4096x32000.size a := by
    intro a
    match a with
    | ⟨0, _⟩ =>
      show 0 ≤ sd.start (ix1 r') idx 0 + sd.window (ix1 r') 0 ∧ sd.start (ix1 r') idx 0 + sd.window (ix1 r') 0 < ((4096 : Nat) : Int)
      rw [sd_start_zero, sd_window, h0]
      have := r'.isLt
      omega
    | ⟨1, _⟩ =>
      show 0 ≤ sd.start (ix1 r') idx 1 + sd.window (ix1 r') 1 ∧ sd.start (ix1 r') idx 1 + sd.window (ix1 r') 1 < ((32000 : Nat) : Int)
      rw [sd_start_one, sd_window, h1]
      have := c.isLt
      omega
  unfold ScatterDims.resultIdx?
  rw [dif_pos hall]
  congr 1
  funext a; refine Fin.ext ?_
  match a with
  | ⟨0, _⟩ =>
    show (sd.start (ix1 r') idx 0 + sd.window (ix1 r') 0).toNat = r'.val
    rw [sd_start_zero, sd_window, h0]
    omega
  | ⟨1, _⟩ =>
    show (sd.start (ix1 r') idx 1 + sd.window (ix1 r') 1).toNat = c.val
    rw [sd_start_one, sd_window, h1]
    omega

/-- The row selector %22: the row number, since a row number is not negative. -/
theorem v22_at (r' : Fin 4096) : val_main_v22 (F := Ideal) (ix1 r') = BitVec.ofNat 32 r'.val := by
  rw [val_main_v22_apply, val_main_v19_apply, val_main_v18_apply, val_main_c_apply, val_main_v17_apply]
  show Scalar.select (IntOp.cmpi .slt (BitVec.ofNat 32 r'.val) 0#32) _ _ = _
  have hlt : (BitVec.ofNat 32 r'.val).toNat < 2 ^ 31 := by
    rw [BitVec.toNat_ofNat]; have := r'.isLt; omega
  have h : ¬ IntOp.cmpi .slt (BitVec.ofNat 32 r'.val) 0#32 = 1#1 := by
    rw [Predicate.slt_iff_toNat hlt (by decide)]
    show ¬ (BitVec.ofNat 32 r'.val).toNat < 0
    omega
  rw [eq_zero_of_ne_one h, select_zero]

/-- The column selector %27 on a label in range: the label, since such a word is not signed-negative. -/
theorem v27_at (x1 : (⟨S4096, .i32⟩ : BufTy).Contents (Elt Ideal)) (r' : Fin 4096) (h : (x1 (ix1 r')).toNat < 32000) :
    val_main_v27 (F := Ideal) x1 (ix1 r') = x1 (ix1 r') := by
  rw [val_main_v27_apply, val_main_v24_apply, val_main_v23_apply, val_main_c_5_apply]
  have hc : ¬ IntOp.cmpi .slt (x1 (ix1 r')) 0#32 = 1#1 := by
    rw [Predicate.slt_iff_toNat (by omega) (by decide)]
    show ¬ (x1 (ix1 r')).toNat < 0
    omega
  rw [eq_zero_of_ne_one hc, select_zero]

/-- Component 0 of the start index of update r': the row number. -/
theorem v30_zero (x1 : (⟨S4096, .i32⟩ : BufTy).Contents (Elt Ideal)) (r' : Fin 4096) :
    val_main_v30 (F := Ideal) x1 (ix2 r' (0 : Fin 2)) = BitVec.ofNat 32 r'.val := by
  unfold val_main_v30
  rw [concatenate_pair_apply_left (t := S4096x2) (s₁ := S4096x1) (s₂ := S4096x1) (1 : Fin 2) _ _ concatenates_S4096x1_S4096x1_S4096x2_d1 (ix2 r' (0 : Fin 2)) rfl
    (ix2 r' (0 : Fin 1)) (fun b => by match b with | ⟨0, _⟩ => rfl | ⟨1, _⟩ => rfl)]
  rw [val_main_v28_apply]
  have hi : idx_main_v28 (ix2 r' (0 : Fin 1)) = ix1 r' := by
    funext a; match a with | ⟨0, _⟩ => rfl
  rw [hi, v22_at]

/-- Component 1 of the start index of update r', on a label in range: the label. -/
theorem v30_one (x1 : (⟨S4096, .i32⟩ : BufTy).Contents (Elt Ideal)) (r' : Fin 4096) (h : (x1 (ix1 r')).toNat < 32000) :
    val_main_v30 (F := Ideal) x1 (ix2 r' (1 : Fin 2)) = x1 (ix1 r') := by
  unfold val_main_v30
  rw [concatenate_pair_apply_right (t := S4096x2) (s₁ := S4096x1) (s₂ := S4096x1) (1 : Fin 2) _ _ concatenates_S4096x1_S4096x1_S4096x2_d1 (ix2 r' (1 : Fin 2)) rfl rfl
    (ix2 r' (0 : Fin 1)) (fun b hb => by
      match b with
      | ⟨0, _⟩ => rfl
      | ⟨1, _⟩ => exact absurd rfl hb) rfl]
  rw [val_main_v29_apply]
  have hi : idx_main_v29 (ix2 r' (0 : Fin 1)) = ix1 r' := by
    funext a; match a with | ⟨0, _⟩ => rfl
  rw [hi, v27_at x1 r' h]

/-- Where update r' lands: row r', at the column of its label. -/
theorem resultIdx?_v30 (x1 : (⟨S4096, .i32⟩ : BufTy).Contents (Elt Ideal))
    (hlab : ∀ r : Fin 4096, (x1 (ix1 r)).toNat < 32000) (r' : Fin 4096) :
    sd.resultIdx? (ix1 r') (val_main_v30 (F := Ideal) x1) = some (ix2 r' ⟨(x1 (ix1 r')).toNat, hlab r'⟩) := by
  refine sd_resultIdx? _ r' ⟨(x1 (ix1 r')).toNat, hlab r'⟩ ?_ ?_
  · rw [v30_zero]
    exact Predicate.toInt_ofNat_small r'.val (by have := r'.isLt; omega)
  · rw [v30_one x1 r' (hlab r')]
    exact Predicate.toInt_eq_toNat_of_lt (by have := hlab r'; omega)

/-- An update lands at entry (r, j) exactly when it is update r and j is row r's label. -/
theorem lands_iff (x1 : (⟨S4096, .i32⟩ : BufTy).Contents (Elt Ideal))
    (hlab : ∀ r : Fin 4096, (x1 (ix1 r)).toNat < 32000) (u : S4096.Idx) (r : Fin 4096) (j : Fin 32000) :
    sd.resultIdx? u (val_main_v30 (F := Ideal) x1) = some (ix2 r j) ↔ u = ix1 r ∧ j.val = (x1 (ix1 r)).toNat := by
  obtain ⟨r', rfl⟩ : ∃ r' : Fin 4096, u = ix1 r' := ⟨u 0, eq_ix1 u⟩
  rw [resultIdx?_v30 x1 hlab r', Option.some.injEq]
  constructor
  · intro h
    have h0 : r' = r := congrFun h 0
    have h1 : (⟨(x1 (ix1 r')).toNat, hlab r'⟩ : Fin 32000) = j := congrFun h 1
    subst h0
    exact ⟨rfl, by rw [← h1]⟩
  · rintro ⟨hu, hj⟩
    have h0 : r' = r := congrFun hu 0
    subst h0
    have hc : (⟨(x1 (ix1 r')).toNat, hlab r'⟩ : Fin 32000) = j := Fin.ext hj.symm
    rw [hc]

/-- The reference's scatter read at one entry: the operand there, plus row r's update when the column is row r's label. -/
theorem scatter_read (x0 : (⟨Cert.ReferenceIdeal.S4096x32000, .f32⟩ : BufTy).Contents (Elt Ideal)) (x1 : (⟨Cert.ReferenceIdeal.S4096, .i32⟩ : BufTy).Contents (Elt Ideal))
    (hlab : ∀ r : Fin 4096, (x1 (ix1 r)).toNat < 32000) (r : Fin 4096) (j : Fin 32000) :
    Cert.ReferenceIdeal.Read.val_main_v31 (F := Ideal) x0 x1 (ix2 r j)
      = Cert.ReferenceIdeal.Read.val_main_v13 (F := Ideal) x0 x1 (ix2 r j)
        + if j.val = (x1 (ix1 r)).toNat then Cert.ReferenceIdeal.Read.val_main_v16 (F := Ideal) x0 x1 (ix1 r) else 0 := by
  unfold val_main_v31
  simp only [Host.scatterAdd, Ideal.hostScatterAdd_def]
  unfold Ideal.hostScatterAdd
  have key : ∀ (a S T : EReal), S = T → a + S = a + T := fun a S T h => by rw [h]
  apply key
  by_cases hj : j.val = (x1 (ix1 r)).toNat
  · rw [if_pos hj]
    refine Finset.sum_eq_single_of_mem (ix1 r) ?_ ?_
    · exact Finset.mem_filter.2 ⟨Finset.mem_univ _, (lands_iff x1 hlab _ r j).2 ⟨rfl, hj⟩⟩
    · intro u hu hne
      exact absurd ((lands_iff x1 hlab u r j).1 (Finset.mem_filter.1 hu).2).1 hne
  · rw [if_neg hj]
    refine Finset.sum_eq_zero ?_
    intro u hu
    exact absurd ((lands_iff x1 hlab u r j).1 (Finset.mem_filter.1 hu).2).2 hj

end Cert.ReferenceIdeal.RefValue

end
-- ==== Proof.ReferenceValue.lean ====
/-
  The reference program's value, read row by row.

  For row r with label ℓ_r in [0, 32000):
    * the reduce over the columns is S_r = Σ_j x[r, j] (the initial value is the f32 zero, the extended real 0);
    * take_along_axis wraps a negative index by adding 32000, tests the wrapped index against [0, 31999], gathers the
      row's entry at the wrapped index clamped into the row, and answers NaN where the test fails. On a label in range
      nothing is wrapped, the test answers 1 on every row, the clamp is the identity, and the gathered entry is
      t_r = x[r, ℓ_r];
    * s_r = α / (1 + S_r − 2 t_r), corr_r = 1 − s_r S_r and the product s_r · x[r, j] are read off operation by operation;
    * the scatter adds corr_r at column ℓ_r of row r and nothing elsewhere, so the result at (r, j) is
      s_r x[r, j] + (corr_r if j = ℓ_r else 0): the function G.
-/
import proofs.«428629_j901943132312_3_alg».proof.Proof.Gen.ReferenceIdeal.Read
import proofs.«428629_j901943132312_3_alg».proof.Proof.Rescale
import proofs.«428629_j901943132312_3_alg».proof.Proof.ScatterRead
import Idealize.ShloMosaic.Lib.ValueIdx
import Idealize.ShloMosaic.Lib.StableHlo.Predicate
import Idealize.ShloMosaic.PureOps.Reduce
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The gather of this program read at (r, 0): the operand's row r at the start index of row r, read signed and
    clamped into the row. Axis 0 is the batching axis (start 0, the result's row), axis 1 the collapsed axis the start
    index names (no offset). -/
theorem gather_row {α : Type} (x : S4096x32000.Idx → α) (idx : IVec S4096x1x1 32) (r : Fin 4096) :
    Host.gather gather_S4096x32000_S4096x1x1_S4096x1_n_1_0_0_1_2_11 x idx (ix2 r (0 : Fin 1))
      = x (ix2 r ⟨min (idx (ix3 r (0 : Fin 1) (0 : Fin 1))).toInt.toNat 31999, by omega⟩) := by
  unfold Host.gather
  congr 1
  funext a
  refine Fin.ext ?_
  match a with
  | ⟨0, _⟩ =>
    show gather_S4096x32000_S4096x1x1_S4096x1_n_1_0_0_1_2_11.start (ix2 r (0 : Fin 1)) idx 0
      + gather_S4096x32000_S4096x1x1_S4096x1_n_1_0_0_1_2_11.batchCoord (ix2 r (0 : Fin 1)) 0
      + gather_S4096x32000_S4096x1x1_S4096x1_n_1_0_0_1_2_11.offCoord (ix2 r (0 : Fin 1)) 0 = r.val
    have hb : (0 : Fin 2) ∈ gather_S4096x32000_S4096x1x1_S4096x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    rw [Nat.zero_add, Nat.add_zero]
    unfold GatherDims.batchCoord
    rw [dif_pos hb]
    rfl
  | ⟨1, _⟩ =>
    show gather_S4096x32000_S4096x1x1_S4096x1_n_1_0_0_1_2_11.start (ix2 r (0 : Fin 1)) idx 1
      + gather_S4096x32000_S4096x1x1_S4096x1_n_1_0_0_1_2_11.batchCoord (ix2 r (0 : Fin 1)) 1
      + gather_S4096x32000_S4096x1x1_S4096x1_n_1_0_0_1_2_11.offCoord (ix2 r (0 : Fin 1)) 1 = _
    have hc : (1 : Fin 2) ∈ gather_S4096x32000_S4096x1x1_S4096x1_n_1_0_0_1_2_11.collapsedSliceDims :=
      List.mem_singleton.mpr rfl
    have hm : (1 : Fin 2) ∈ gather_S4096x32000_S4096x1x1_S4096x1_n_1_0_0_1_2_11.startIndexMap :=
      List.mem_singleton.mpr rfl
    rw [GatherDims.batchCoord_eq_zero _ _ _ (by decide),
      GatherDims.offCoord_eq_zero _ _ _ (fun h => ((GatherDims.mem_sKept _ _).mp h).1 hc)]
    simp only [Nat.add_zero]
    unfold GatherDims.start
    rw [dif_pos hm]
    have hsi : gather_S4096x32000_S4096x1x1_S4096x1_n_1_0_0_1_2_11.siIdx (ix2 r (0 : Fin 1))
        ⟨List.idxOf (1 : Fin 2) gather_S4096x32000_S4096x1x1_S4096x1_n_1_0_0_1_2_11.startIndexMap,
          List.idxOf_lt_length_iff.2 hm⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- Row r of the [4096, 1, 1] start indices is row r of the [4096, 1] array they reshape. -/
private theorem idx_v5 (r : Fin 4096) :
    Read.idx_main_call0_v5 (ix3 r (0 : Fin 1) (0 : Fin 1)) = ix2 r (0 : Fin 1) := by
  funext a; refine Fin.ext ?_
  match a with
  | ⟨0, _⟩ => show ((r.val * 1 + 0) * 1 + 0) / 1 = r.val; omega
  | ⟨1, _⟩ => rfl

/-- Row r of the labels broadcast to [4096, 1] is label r. -/
private theorem idx_v1 (r : Fin 4096) : Read.idx_main_v1 (ix2 r (0 : Fin 1)) = ix1 r := by
  funext a; match a with | ⟨0, _⟩ => rfl

/-- Row r of the gathered [4096, 1] column is entry r of its reshape to [4096]. -/
private theorem idx_v3 (r : Fin 4096) : Read.idx_main_v3 (ix1 r) = ix2 r (0 : Fin 1) := by
  funext a; refine Fin.ext ?_
  match a with
  | ⟨0, _⟩ => show r.val / 1 = r.val; omega
  | ⟨1, _⟩ => rfl

/-- A label in range is not negative, so the wrap of negative indices leaves it alone: the start index of row r is
    the label of row r. -/
theorem start_index_eq_label (x1 : (⟨Cert.ReferenceIdeal.S4096, .i32⟩ : BufTy).Contents (Elt Ideal)) (r : Fin 4096) (h : (x1 (ix1 r)).toNat < 32000) :
    Read.val_main_call0_v5 (F := Ideal) x1 (ix3 r (0 : Fin 1) (0 : Fin 1)) = x1 (ix1 r) := by
  rw [Read.val_main_call0_v5_apply, idx_v5, Read.val_main_call0_v4_apply, Read.val_main_call0_v1_apply,
    Read.val_main_v1_apply, idx_v1, Read.val_main_call0_v0_apply, Read.val_main_call0_c_apply]
  have hn : IntOp.cmpi .slt (x1 (ix1 r)) 0#32 = 0#1 := by
    refine eq_zero_of_ne_one fun e => ?_
    have h0 := (StableHlo.Predicate.slt_iff_toNat (a := x1 (ix1 r)) (b := 0#32) (by omega) (by decide)).mp e
    exact absurd h0 (by show ¬ (x1 (ix1 r)).toNat < 0; omega)
  rw [hn, select_zero]

/-- Every start index is inside [0, 31999]: both comparisons answer 1. -/
theorem label_in_bounds (x1 : (⟨Cert.ReferenceIdeal.S4096, .i32⟩ : BufTy).Contents (Elt Ideal)) (hlab : ∀ r : Fin 4096, (x1 (ix1 r)).toNat < 32000) (i : S4096x1x1.Idx) :
    Read.val_main_call0_v11 (F := Ideal) x1 i = 1#1 := by
  obtain ⟨r, b, c, rfl⟩ : ∃ (r : Fin 4096) (b : Fin 1) (c : Fin 1), i = ix3 r b c := ⟨i 0, i 1, i 2, eq_ix3 i⟩
  obtain rfl : b = 0 := Subsingleton.elim _ _
  obtain rfl : c = 0 := Subsingleton.elim _ _
  have h := hlab r
  rw [Read.val_main_call0_v11_apply, Read.val_main_call0_v7_apply, Read.val_main_call0_v10_apply,
    start_index_eq_label x1 r h, Read.val_main_call0_v6_apply, Read.val_main_call0_c_2_apply, Read.val_main_call0_v9_apply,
    Read.val_main_call0_v8_apply, Read.val_main_call0_c_1_apply]
  rw [(StableHlo.Predicate.sge_iff_toNat (a := x1 (ix1 r)) (b := 0#32) (by omega) (by decide)).mpr
      (by show 0 ≤ (x1 (ix1 r)).toNat; omega),
    (StableHlo.Predicate.sle_iff_toNat (a := x1 (ix1 r)) (b := 31999#32) (by omega) (by decide)).mpr
      (by show (x1 (ix1 r)).toNat ≤ 31999; omega)]
  decide

/-- A left fold by "and" from 1 over words that are all 1 is 1. -/
private theorem foldl_andi_ones {ι : Type} (g : ι → BitVec 1) (hg : ∀ n, g n = 1#1) :
    ∀ l : List ι, l.foldl (fun r n => IntOp.andi r (g n)) 1#1 = 1#1
  | [] => rfl
  | a :: l => by
    have h1 : IntOp.andi 1#1 1#1 = 1#1 := by decide
    rw [List.foldl_cons, hg a, h1]
    exact foldl_andi_ones g hg l

/-- The in-bounds mask of the gather is 1 on every row. -/
theorem gather_mask_one (x1 : (⟨Cert.ReferenceIdeal.S4096, .i32⟩ : BufTy).Contents (Elt Ideal)) (hlab : ∀ r : Fin 4096, (x1 (ix1 r)).toNat < 32000) (r : Fin 4096) :
    Read.val_main_call0_v12 (F := Ideal) x1 (ix2 r (0 : Fin 1)) = 1#1 := by
  unfold Read.val_main_call0_v12 Host.reduce
  rw [Read.val_main_call0_c_3_apply]
  exact foldl_andi_ones _ (fun n => label_in_bounds x1 hlab _) _

/-- The reference's gathered entry of row r is t_r: the in-bounds mask answers 1, the start index is the label, and on a
    label in range reading it signed and clamping it into the row change nothing. -/
theorem gathered_at_label (x0 : (⟨Cert.ReferenceIdeal.S4096x32000, .f32⟩ : BufTy).Contents (Elt Ideal)) (x1 : (⟨Cert.ReferenceIdeal.S4096, .i32⟩ : BufTy).Contents (Elt Ideal)) (hlab : ∀ r : Fin 4096, (x1 (ix1 r)).toNat < 32000) (r : Fin 4096) :
    Cert.ReferenceIdeal.Read.val_main_v3 (F := Ideal) x0 x1 (ix1 r) = Cert.Rescale.atLabel x0 x1 r := by
  have h := hlab r
  rw [Read.val_main_v3_apply, idx_v3, Read.val_main_v2_apply, gather_mask_one x1 hlab r, select_one]
  unfold Read.val_main_call0_v13
  rw [gather_row]
  unfold Cert.Rescale.atLabel
  refine congrArg x0 (congrArg (ix2 r) (Fin.ext ?_))
  show min (Read.val_main_call0_v5 (F := Ideal) x1 (ix3 r (0 : Fin 1) (0 : Fin 1))).toInt.toNat 31999
    = min (x1 (ix1 r)).toNat 31999
  rw [start_index_eq_label x1 r h, StableHlo.Predicate.toInt_eq_toNat_of_lt (by omega), Int.toNat_natCast]

/-- The reference's reduce of row r over the columns is S_r: it starts from the f32 zero, the extended real 0. -/
theorem row_sum (x0 : (⟨Cert.ReferenceIdeal.S4096x32000, .f32⟩ : BufTy).Contents (Elt Ideal)) (x1 : (⟨Cert.ReferenceIdeal.S4096, .i32⟩ : BufTy).Contents (Elt Ideal)) (r : Fin 4096) :
    Cert.ReferenceIdeal.Read.val_main_v0 (F := Ideal) x0 (ix1 r) = Cert.Rescale.rowSum x0 r := by
  rw [Read.val_main_v0_apply, Read.val_main_cst_apply, Ideal.ofBits_def, Ideal.ofBits_zero_f32, zero_add]
  unfold Cert.Rescale.rowSum
  refine Finset.sum_congr rfl fun k _ => congrArg x0 ?_
  funext a; match a with | ⟨0, _⟩ => rfl | ⟨1, _⟩ => rfl

/-- The reference's scale of row r is s_r. -/
theorem scale_at (x0 : (⟨Cert.ReferenceIdeal.S4096x32000, .f32⟩ : BufTy).Contents (Elt Ideal)) (x1 : (⟨Cert.ReferenceIdeal.S4096, .i32⟩ : BufTy).Contents (Elt Ideal)) (hlab : ∀ r : Fin 4096, (x1 (ix1 r)).toNat < 32000) (r : Fin 4096) :
    Read.val_main_v10 (F := Ideal) x0 x1 (ix1 r) = Cert.Rescale.scale x0 x1 r := by
  rw [Read.val_main_v10_apply, Ideal.hostDivf_def, Read.val_main_v9_apply, Read.val_main_cst_2_apply,
    Read.val_main_v8_apply, Ideal.subf_def, Read.val_main_v5_apply, Ideal.addf_def, Read.val_main_v4_apply,
    Read.val_main_cst_0_apply, Read.val_main_v7_apply, Ideal.mulf_def, Read.val_main_v6_apply,
    Read.val_main_cst_1_apply, row_sum x0 x1 r, gathered_at_label x0 x1 hlab r]
  rfl

/-- The reference's correction of row r is corr_r. -/
theorem corr_at (x0 : (⟨Cert.ReferenceIdeal.S4096x32000, .f32⟩ : BufTy).Contents (Elt Ideal)) (x1 : (⟨Cert.ReferenceIdeal.S4096, .i32⟩ : BufTy).Contents (Elt Ideal)) (hlab : ∀ r : Fin 4096, (x1 (ix1 r)).toNat < 32000) (r : Fin 4096) :
    Read.val_main_v16 (F := Ideal) x0 x1 (ix1 r) = Cert.Rescale.corr x0 x1 r := by
  rw [Read.val_main_v16_apply, Ideal.subf_def, Read.val_main_v15_apply, Read.val_main_cst_3_apply,
    Read.val_main_v14_apply, Ideal.mulf_def, scale_at x0 x1 hlab r, row_sum x0 x1 r]
  rfl

/-- The scaled logits at (r, j). -/
theorem scaled_at (x0 : (⟨Cert.ReferenceIdeal.S4096x32000, .f32⟩ : BufTy).Contents (Elt Ideal)) (x1 : (⟨Cert.ReferenceIdeal.S4096, .i32⟩ : BufTy).Contents (Elt Ideal)) (hlab : ∀ r : Fin 4096, (x1 (ix1 r)).toNat < 32000) (r : Fin 4096) (j : Fin 32000) :
    Read.val_main_v13 (F := Ideal) x0 x1 (ix2 r j) = Cert.Rescale.scale x0 x1 r * x0 (ix2 r j) := by
  rw [Read.val_main_v13_apply, Ideal.mulf_def, Read.val_main_v12_apply, Read.val_main_v11_apply]
  have hi : Read.idx_main_v11 (Read.idx_main_v12 (ix2 r j)) = ix1 r := by
    funext a; match a with | ⟨0, _⟩ => rfl
  rw [hi, scale_at x0 x1 hlab r]

/-- The reference's result is G: at (r, j) the scaled logit plus, at the label's column only, the row's correction. -/
theorem reference_is_G (x0 : (⟨Cert.ReferenceIdeal.S4096x32000, .f32⟩ : BufTy).Contents (Elt Ideal)) (x1 : (⟨Cert.ReferenceIdeal.S4096, .i32⟩ : BufTy).Contents (Elt Ideal)) (hlab : ∀ r : Fin 4096, (x1 (ix1 r)).toNat < 32000) :
    Cert.ReferenceIdeal.Read.val_main_v31 (F := Ideal) x0 x1 = Cert.Rescale.G x0 x1 := by
  funext i
  obtain ⟨r, j, rfl⟩ : ∃ (r : Fin 4096) (j : Fin 32000), i = ix2 r j := ⟨i 0, i 1, eq_ix2 i⟩
  rw [scatter_read x0 x1 hlab r j, Cert.Rescale.G_apply, scaled_at x0 x1 hlab r j, corr_at x0 x1 hlab r]
  rfl

end Cert.ReferenceIdeal.RefValue

end
-- ==== Proof.LabelRange.lean ====
/-
  What the precondition says of the labels: every label, read as an unsigned word, is below 32000.

  The precondition is the conjunction of three "for all" statements, each printed as a reduction by "and" of an
  array of comparison bits, joined by two "and"s, and the claim gives that the result is 1. So each reduction
  is 1, hence every bit it reduces is 1. At row r the second says 0 ≤ label_r read signed and the third says
  label_r < 32000 read signed. A signed word that is nonnegative reads the same unsigned, so label_r < 32000
  unsigned. The first conjunct (every logit finite) is not used.
-/
import proofs.«428629_j901943132312_3_alg».proof.Pre_finite_inputs
import proofs.«428629_j901943132312_3_alg».proof.Proof.Rescale
import Idealize.ShloMosaic.Lib.ReduceAll
import Idealize.ShloMosaic.Lib.StableHlo.Predicate

noncomputable section

open scoped BigOperators

namespace Cert.Rescale

open Idealize.ShloMosaic Idealize.ShloMosaic.ValueIdx

/-- The result of a reduction over every axis has exactly one index. -/
instance : Subsingleton Cert.Pre_finite_inputs.S_.Idx := ⟨fun a b => funext fun d => d.elim0⟩

/-- A 32-bit word that is at least 0 and below 32000, both read signed, is below 32000 read unsigned. -/
theorem toNat_lt_of_signed_range (w : BitVec 32) (h0 : IntOp.cmpi .sge w 0#32 = 1#1)
    (h1 : IntOp.cmpi .slt w 32000#32 = 1#1) : w.toNat < 32000 := by
  rw [IntOp.cmpi_sge] at h0
  rw [IntOp.cmpi_slt] at h1
  rw [show (0#32 : BitVec 32).toInt = 0 from by decide] at h0
  rw [show (32000#32 : BitVec 32).toInt = 32000 from by decide] at h1
  have hw := w.isLt
  rw [BitVec.toInt_eq_toNat_cond] at h0 h1
  split at h0 <;> omega

/-- Under the precondition, every row's label is a column of the row. -/
theorem labels_in_range {F : FTy → Type} [FloatOps F] [Cert.Pre_finite_inputs.Facts]
    (x0 : FVec F Cert.Pre_finite_inputs.S4096x32000 .f32) (x1 : IVec Cert.Pre_finite_inputs.S4096 32)
    (h : Cert.Pre_finite_inputs.fn (F := F) x0 x1 = fun _ => 1#1) (r : Fin 4096) :
    (x1 (ix1 r)).toNat < 32000 := by
  have e := congrFun h ValueIdx.ix0
  dsimp only [Cert.Pre_finite_inputs.fn] at e
  obtain ⟨e12, e3⟩ := IntOp.andi_eq_one.1 e
  obtain ⟨-, e2⟩ := IntOp.andi_eq_one.1 e12
  have g2 := Host.reduce_andi_all _ _ _ _ _ e2 (ix1 r)
  have g3 := Host.reduce_andi_all _ _ _ _ _ e3 (ix1 r)
  exact toNat_lt_of_signed_range _ g2 g3

end Cert.Rescale

end
-- ==== Proof.lean ====
/-
  The certificate: a per-row "complement" rescale of a logits array, as a Pallas kernel and as jnp.

  For logits x : [4096, 32000] and a label ℓ_r per row, both programs compute, row by row,
    S_r = Σ_j x[r, j],   t_r = x[r, ℓ_r],   s_r = α / (1 + S_r − 2 t_r),   corr_r = 1 − s_r S_r,
    out[r, j] = s_r x[r, j] + (corr_r if j = ℓ_r, else 0).
  The kernel walks each block of 64 rows in five chunks of 6400 columns, takes t_r as a masked sum, and adds
  corr_r times the 0/1 mask; the reference sums the row, gathers x[r, ℓ_r] and scatter-adds corr_r at (r, ℓ_r).
  The kernel clamps the labels into [0, 31999] while jnp's gather and scatter wrap negative labels and drop or
  NaN-fill the others, so the two agree exactly on labels in [0, 32000): the precondition says so (beside the
  finiteness of the logits, which the proof does not need: only regrouping of sums and sums with one non-zero
  term are used, and those hold on the extended reals).

  Both results are shown to be ONE function G of the launched arrays (Rescale.lean): the kernel's output array block
  by block (BodyTerms, BlockValue, KernelValue), the reference's last stage operation by operation (ScatterRead,
  ReferenceValue); the label range is read off the precondition (LabelRange). The three frames are the generated
  ones; the idealization rewrote nothing, so its conjunct is trivial.
-/
import proofs.«428629_j901943132312_3_alg».proof.Defs
import proofs.«428629_j901943132312_3_alg».proof.Proof.Gen.Kernel
import proofs.«428629_j901943132312_3_alg».proof.Proof.Gen.Kernel.Skeleton
import proofs.«428629_j901943132312_3_alg».proof.Proof.Gen.Kernel.Launch
import proofs.«428629_j901943132312_3_alg».proof.Proof.Gen.Kernel.Points
import proofs.«428629_j901943132312_3_alg».proof.Proof.Gen.Kernel.Frame
import proofs.«428629_j901943132312_3_alg».proof.Proof.Gen.KernelIdeal
import proofs.«428629_j901943132312_3_alg».proof.Proof.Gen.KernelIdeal.Skeleton
import proofs.«428629_j901943132312_3_alg».proof.Proof.Gen.KernelIdeal.Launch
import proofs.«428629_j901943132312_3_alg».proof.Proof.Gen.KernelIdeal.Points
import proofs.«428629_j901943132312_3_alg».proof.Proof.Gen.KernelIdeal.Frame
import proofs.«428629_j901943132312_3_alg».proof.Proof.Gen.ReferenceIdeal
import proofs.«428629_j901943132312_3_alg».proof.Proof.Gen.Pre_finite_inputs
import proofs.«428629_j901943132312_3_alg».proof.Proof.Gen.KernelIdeal.Value
import proofs.«428629_j901943132312_3_alg».proof.Proof.Gen.ReferenceIdeal.Run
import proofs.«428629_j901943132312_3_alg».proof.Proof.Gen.ReferenceIdeal.Read
import proofs.«428629_j901943132312_3_alg».proof.Proof.KernelValue
import proofs.«428629_j901943132312_3_alg».proof.Proof.ReferenceValue
import proofs.«428629_j901943132312_3_alg».proof.Proof.LabelRange
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, with every label in [0, 32000), the kernel's output array and the
    reference's last stage both end at G of the launched logits and labels. -/
theorem algebraic : Cert.algebraic_KernelIdeal_ReferenceIdeal := by
  intro m ρ m' ρ' hpre hagree
  have hlab : ∀ (c : Dev Cert.KernelIdeal.nD) (r : Fin 4096), (Cert.KernelIdeal.Body.labels m c (ix1 r)).toNat < 32000 :=
    fun c r => Cert.Rescale.labels_in_range _ _ (hpre c) r
  refine ⟨fun c => Cert.Rescale.G (Cert.KernelIdeal.Body.logits m c) (Cert.KernelIdeal.Body.labels m c),
    Cert.KernelIdeal.Body.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2]
  exact Cert.ReferenceIdeal.RefValue.reference_is_G _ _ (hlab c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
